-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x1 : Shape := ⟨2, ![50000, 1]⟩
abbrev S64x128 : Shape := ⟨2, ![64, 128]⟩
abbrev S10000x1 : Shape := ⟨2, ![10000, 1]⟩
abbrev S10000x64 : Shape := ⟨2, ![10000, 64]⟩
abbrev S64 : Shape := ⟨1, ![64]⟩
abbrev S64x1 : Shape := ⟨2, ![64, 1]⟩
abbrev S1x1 : Shape := ⟨2, ![1, 1]⟩

abbrev nBuf : Space → Nat
  | .hbm => 133
  | .vmem => 20
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x128, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x1, .f32⟩
  | 105 => ⟨S850000x128, .f32⟩
  | 106 => ⟨S850000x128, .f32⟩
  | 107 => ⟨S_, .f32⟩
  | 108 => ⟨S50000x128, .f32⟩
  | 109 => ⟨S850000x1, .i32⟩
  | 110 => ⟨S50000x128, .f32⟩
  | 111 => ⟨S1x128, .f32⟩
  | 112 => ⟨S50000x128, .f32⟩
  | 113 => ⟨S50000x128, .f32⟩
  | 114 => ⟨S50000x1, .i32⟩
  | 115 => ⟨S64x128, .f32⟩
  | 116 => ⟨S_, .f32⟩
  | 117 => ⟨S50000, .f32⟩
  | 118 => ⟨S_, .f32⟩
  | 119 => ⟨S64, .f32⟩
  | 120 => ⟨S50000x1, .i32⟩
  | 121 => ⟨S64, .f32⟩
  | 122 => ⟨S_, .f32⟩
  | 123 => ⟨S64, .f32⟩
  | 124 => ⟨S64, .f32⟩
  | 125 => ⟨S64x1, .f32⟩
  | 126 => ⟨S64x128, .f32⟩
  | 127 => ⟨S64x128, .f32⟩
  | _ => ⟨S50000x128, .f32⟩

abbrev hbmTy0_1 (i : Nat) : BufTy := match i % 128 with
  | 0 => ⟨S64x1, .f32⟩
  | 1 => ⟨S1x1, .f32⟩
  | 2 => ⟨S64x1, .f32⟩
  | 3 => ⟨S64x1, .f32⟩
  | 4 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .i32⟩
  | .local _ .vmem, ⟨18, _⟩ => ⟨S10000x1, .i32⟩
  | .local _ .vmem, ⟨19, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  shapeCasts_S64x128_S64x128 : S64x128.ShapeCasts S64x128
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x64_S10000x128_S64x128_0_0_1_1_n_n_wf : DotDims.WF S10000x64 S10000x128 S64x128 [0] [0] [1] [1] [] []
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .i32 = 32 ∨ (Rect.block (s := S50000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x128, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x1, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x128, .f32⟩
  | 110 => ⟨S850000x1, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S64x128, .f32⟩
  | 122 => ⟨S50000x1, .i32⟩
  | 123 => ⟨S64x128, .f32⟩
  | 124 => ⟨S_, .f32⟩
  | 125 => ⟨S50000, .f32⟩
  | 126 => ⟨S_, .f32⟩
  | 127 => ⟨S64, .f32⟩
  | _ => ⟨S50000x128, .f32⟩

abbrev hbmTy0_1 (i : Nat) : BufTy := match i % 128 with
  | 0 => ⟨S50000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x128, .f32⟩
  | 7 => ⟨S64x128, .f32⟩
  | 8 => ⟨S64x1, .f32⟩
  | 9 => ⟨S1x1, .f32⟩
  | 10 => ⟨S64x1, .f32⟩
  | 11 => ⟨S64x1, .f32⟩
  | 12 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KHost0.lean ====
/-
  The graph normalisation, as the first dense layer finds it.

  Before the first dense layer the program computes, from the edge list alone, the source and destination
  columns with the self loops appended, the degrees, their inverse square roots (zero where a node has no
  edge), and the per-edge weight: the product of the two ends' inverse square roots. These are the values
  the reference computes with the same operations; the argument arrays are still what they were at launch.
-/
import proofs.«420952_j2327872274533_2_alg».proof.Proof.Gen.KernelIdeal.Frame
import proofs.«420952_j2327872274533_2_alg».proof.Proof.RefRead
import Idealize.ShloMosaic.Lib.StableHlo.Run

set_option maxRecDepth 16384

noncomputable section

namespace Cert.KernelIdeal.Host0

open Cert.KernelIdeal Cert.KernelIdeal.Gen
open Idealize.ShloMosaic Idealize.ShloMosaic.TcCoe Idealize.SL.Sem Idealize.ShloMosaic.StableHlo
open Cert.ReferenceIdeal.ReadP (val_main_v0 val_main_v2 val_main_v3 val_main_v5 val_main_v6 val_main_v10 val_main_v12 val_main_v15 val_main_cst_3 val_main_v16 val_main_v31)

variable {F : FTy → Type} [FloatOps F]
variable (m : (ℓ : Loc nD τ sig) → Buf (Elt F) ℓ) (ρ : Dev nD → PrngReg)

/-- No operation of the stretch writes the buffer: it holds after the stretch what it held before. -/
local macro "keep_host " ops:ident : term => `(StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first stretch: the two index columns, the degree test, the inverse square roots -/

theorem W1_v3 (c : Dev nD) : W1 m ρ c (Proc.devRef .tc main_v3) = val_main_v3 (F := F) (m ((c : Thread nD τ).loc main_arg1)) := by
  show StableHlo.after hostOps0 (W0 m ρ c) (Proc.devRef .tc main_v3) = _
  simp only [hostOps0]
  after_results_simp
  rfl

theorem W1_v6 (c : Dev nD) : W1 m ρ c (Proc.devRef .tc main_v6) = val_main_v6 (F := F) (m ((c : Thread nD τ).loc main_arg1)) := by
  show StableHlo.after hostOps0 (W0 m ρ c) (Proc.devRef .tc main_v6) = _
  simp only [hostOps0]
  after_results_simp
  rfl

theorem W1_v12 (c : Dev nD) : W1 m ρ c (Proc.devRef .tc main_v12) = val_main_v12 (F := F) (m ((c : Thread nD τ).loc main_arg1)) := by
  show StableHlo.after hostOps0 (W0 m ρ c) (Proc.devRef .tc main_v12) = _
  simp only [hostOps0]
  after_results_simp
  rfl

theorem W1_v15 (c : Dev nD) : W1 m ρ c (Proc.devRef .tc main_v15) = val_main_v15 (F := F) (m ((c : Thread nD τ).loc main_arg1)) := by
  show StableHlo.after hostOps0 (W0 m ρ c) (Proc.devRef .tc main_v15) = _
  simp only [hostOps0]
  after_results_simp
  rfl

theorem W1_cst3 (c : Dev nD) : W1 m ρ c (Proc.devRef .tc main_cst_3) = val_main_cst_3 (F := F) := by
  show StableHlo.after hostOps0 (W0 m ρ c) (Proc.devRef .tc main_cst_3) = _
  simp only [hostOps0]
  after_results_simp
  rfl

/-! ## After the second stretch: the inverse square roots, zero where the degree is not positive -/

theorem W2_v16 (c : Dev nD) : W2 m ρ c (Proc.devRef .tc main_v16) = val_main_v16 (F := F) (m ((c : Thread nD τ).loc main_arg1)) := by
  have h12 := W1_v12 m ρ c
  have h15 := W1_v15 m ρ c
  have hc := W1_cst3 m ρ c
  show StableHlo.after hostOps0_1 (W1 m ρ c) (Proc.devRef .tc main_v16) = _
  revert h12 h15 hc
  generalize W1 m ρ c = W
  intro h12 h15 hc
  simp only [hostOps0_1]
  after_results_simp
  (try simp only [TRef.ofBuf, TRef.toBuf, cast_eq])
  rw [h12, h15, hc]
  rfl

theorem W2_v3 (c : Dev nD) : W2 m ρ c (Proc.devRef .tc main_v3) = val_main_v3 (F := F) (m ((c : Thread nD τ).loc main_arg1)) :=
  (keep_host hostOps0_1).trans (W1_v3 m ρ c)

theorem W2_v6 (c : Dev nD) : W2 m ρ c (Proc.devRef .tc main_v6) = val_main_v6 (F := F) (m ((c : Thread nD τ).loc main_arg1)) :=
  (keep_host hostOps0_1).trans (W1_v6 m ρ c)

/-! ## After the third stretch (the first dense layer's entry): the per-edge weights -/

theorem W3_v31 (c : Dev nD) : W3 m ρ c (Proc.devRef .tc main_v31) = val_main_v31 (F := F) (m ((c : Thread nD τ).loc main_arg1)) := by
  have h3 := W2_v3 m ρ c
  have h6 := W2_v6 m ρ c
  have h16 := W2_v16 m ρ c
  show StableHlo.after hostOps0_2 (W2 m ρ c) (Proc.devRef .tc main_v31) = _
  revert h3 h6 h16
  generalize W2 m ρ c = W
  intro h3 h6 h16
  simp only [hostOps0_2]
  after_results_simp
  rw [h3, h6, h16]
  rfl

theorem W3_v3 (c : Dev nD) : W3 m ρ c (Proc.devRef .tc main_v3) = val_main_v3 (F := F) (m ((c : Thread nD τ).loc main_arg1)) :=
  (keep_host hostOps0_2).trans (W2_v3 m ρ c)

theorem W3_v6 (c : Dev nD) : W3 m ρ c (Proc.devRef .tc main_v6) = val_main_v6 (F := F) (m ((c : Thread nD τ).loc main_arg1)) :=
  (keep_host hostOps0_2).trans (W2_v6 m ρ c)

/-! ## The argument arrays at the first dense layer's entry: as launched -/

theorem W3_arg0 (c : Dev nD) : W3 m ρ c (Proc.devRef .tc main_arg0) = m ((c : Thread nD τ).loc main_arg0) :=
  (keep_host hostOps0_2).trans ((keep_host hostOps0_1).trans ((keep_host hostOps0).trans rfl))

theorem W3_arg2 (c : Dev nD) : W3 m ρ c (Proc.devRef .tc main_arg2) = m ((c : Thread nD τ).loc main_arg2) :=
  (keep_host hostOps0_2).trans ((keep_host hostOps0_1).trans ((keep_host hostOps0).trans rfl))

theorem W3_arg3 (c : Dev nD) : W3 m ρ c (Proc.devRef .tc main_arg3) = m ((c : Thread nD τ).loc main_arg3) :=
  (keep_host hostOps0_2).trans ((keep_host hostOps0_1).trans ((keep_host hostOps0).trans rfl))

theorem W3_arg4 (c : Dev nD) : W3 m ρ c (Proc.devRef .tc main_arg4) = m ((c : Thread nD τ).loc main_arg4) :=
  (keep_host hostOps0_2).trans ((keep_host hostOps0_1).trans ((keep_host hostOps0).trans rfl))

theorem W3_arg5 (c : Dev nD) : W3 m ρ c (Proc.devRef .tc main_arg5) = m ((c : Thread nD τ).loc main_arg5) :=
  (keep_host hostOps0_2).trans ((keep_host hostOps0_1).trans ((keep_host hostOps0).trans rfl))

theorem W3_arg6 (c : Dev nD) : W3 m ρ c (Proc.devRef .tc main_arg6) = m ((c : Thread nD τ).loc main_arg6) :=
  (keep_host hostOps0_2).trans ((keep_host hostOps0_1).trans ((keep_host hostOps0).trans rfl))

theorem W3_arg7 (c : Dev nD) : W3 m ρ c (Proc.devRef .tc main_arg7) = m ((c : Thread nD τ).loc main_arg7) :=
  (keep_host hostOps0_2).trans ((keep_host hostOps0_1).trans ((keep_host hostOps0).trans rfl))

theorem W3_arg8 (c : Dev nD) : W3 m ρ c (Proc.devRef .tc main_arg8) = m ((c : Thread nD τ).loc main_arg8) :=
  (keep_host hostOps0_2).trans ((keep_host hostOps0_1).trans ((keep_host hostOps0).trans rfl))

theorem W3_arg9 (c : Dev nD) : W3 m ρ c (Proc.devRef .tc main_arg9) = m ((c : Thread nD τ).loc main_arg9) :=
  (keep_host hostOps0_2).trans ((keep_host hostOps0_1).trans ((keep_host hostOps0).trans rfl))

theorem W3_arg10 (c : Dev nD) : W3 m ρ c (Proc.devRef .tc main_arg10) = m ((c : Thread nD τ).loc main_arg10) :=
  (keep_host hostOps0_2).trans ((keep_host hostOps0_1).trans ((keep_host hostOps0).trans rfl))

end Cert.KernelIdeal.Host0

end
-- ==== Proof.KKeep.lean ====
/-
  What the later stretches and the dense layers leave alone.

  The source and destination columns and the per-edge weights are computed once, before the first dense
  layer, and only read afterwards; a bias, a weight, the graph ids and the read-out parameters are argument
  arrays that nothing writes. Each is followed here from the first dense layer's entry to the place where it
  is read: a stretch of host operations keeps a buffer none of its operations writes, and a dense layer or the
  pooling keeps every buffer that is not one of its own three arrays.
-/
import proofs.«420952_j2327872274533_2_alg».proof.Proof.Gen.KernelIdeal.Frame
import proofs.«420952_j2327872274533_2_alg».proof.Proof.RefRead
import proofs.«420952_j2327872274533_2_alg».proof.Proof.KHost0
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo
open Cert.ReferenceIdeal.ReadP (val_main_v0 val_main_v2 val_main_v3 val_main_v5 val_main_v6 val_main_v10 val_main_v12 val_main_v15 val_main_cst_3 val_main_v16 val_main_v31)

variable {F : FTy → Type} [FloatOps F]
variable (m : (ℓ : Loc nD τ sig) → Buf (Elt F) ℓ) (ρ : Dev nD → PrngReg)

/-- No operation of the stretch writes the buffer: it holds after the stretch what it held before. -/
local macro "keep_host " ops:ident : term => `(StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

open Cert.KernelIdeal.Host0

/-! ### main_v3 -/
theorem W4_v3 (c : Dev nD) : W4 m ρ c (Proc.devRef .tc main_v3) = val_main_v3 (F := F) (m ((c : Thread nD τ).loc main_arg1)) :=
  (W4_of_ne m ρ c main_v3 (by decide)).trans (W3_v3 m ρ c)
theorem W5_v3 (c : Dev nD) : W5 m ρ c (Proc.devRef .tc main_v3) = val_main_v3 (F := F) (m ((c : Thread nD τ).loc main_arg1)) :=
  (keep_host hostOps1).trans (W4_v3 m ρ c)
theorem W6_v3 (c : Dev nD) : W6 m ρ c (Proc.devRef .tc main_v3) = val_main_v3 (F := F) (m ((c : Thread nD τ).loc main_arg1)) :=
  (W6_of_ne m ρ c main_v3 (by decide)).trans (W5_v3 m ρ c)
theorem W7_v3 (c : Dev nD) : W7 m ρ c (Proc.devRef .tc main_v3) = val_main_v3 (F := F) (m ((c : Thread nD τ).loc main_arg1)) :=
  (keep_host hostOps2).trans (W6_v3 m ρ c)
theorem W8_v3 (c : Dev nD) : W8 m ρ c (Proc.devRef .tc main_v3) = val_main_v3 (F := F) (m ((c : Thread nD τ).loc main_arg1)) :=
  (W8_of_ne m ρ c main_v3 (by decide)).trans (W7_v3 m ρ c)

/-! ### main_v6 -/
theorem W4_v6 (c : Dev nD) : W4 m ρ c (Proc.devRef .tc main_v6) = val_main_v6 (F := F) (m ((c : Thread nD τ).loc main_arg1)) :=
  (W4_of_ne m ρ c main_v6 (by decide)).trans (W3_v6 m ρ c)
theorem W5_v6 (c : Dev nD) : W5 m ρ c (Proc.devRef .tc main_v6) = val_main_v6 (F := F) (m ((c : Thread nD τ).loc main_arg1)) :=
  (keep_host hostOps1).trans (W4_v6 m ρ c)
theorem W6_v6 (c : Dev nD) : W6 m ρ c (Proc.devRef .tc main_v6) = val_main_v6 (F := F) (m ((c : Thread nD τ).loc main_arg1)) :=
  (W6_of_ne m ρ c main_v6 (by decide)).trans (W5_v6 m ρ c)
theorem W7_v6 (c : Dev nD) : W7 m ρ c (Proc.devRef .tc main_v6) = val_main_v6 (F := F) (m ((c : Thread nD τ).loc main_arg1)) :=
  (keep_host hostOps2).trans (W6_v6 m ρ c)
theorem W8_v6 (c : Dev nD) : W8 m ρ c (Proc.devRef .tc main_v6) = val_main_v6 (F := F) (m ((c : Thread nD τ).loc main_arg1)) :=
  (W8_of_ne m ρ c main_v6 (by decide)).trans (W7_v6 m ρ c)

/-! ### main_v31 -/
theorem W4_v31 (c : Dev nD) : W4 m ρ c (Proc.devRef .tc main_v31) = val_main_v31 (F := F) (m ((c : Thread nD τ).loc main_arg1)) :=
  (W4_of_ne m ρ c main_v31 (by decide)).trans (W3_v31 m ρ c)
theorem W5_v31 (c : Dev nD) : W5 m ρ c (Proc.devRef .tc main_v31) = val_main_v31 (F := F) (m ((c : Thread nD τ).loc main_arg1)) :=
  (keep_host hostOps1).trans (W4_v31 m ρ c)
theorem W6_v31 (c : Dev nD) : W6 m ρ c (Proc.devRef .tc main_v31) = val_main_v31 (F := F) (m ((c : Thread nD τ).loc main_arg1)) :=
  (W6_of_ne m ρ c main_v31 (by decide)).trans (W5_v31 m ρ c)
theorem W7_v31 (c : Dev nD) : W7 m ρ c (Proc.devRef .tc main_v31) = val_main_v31 (F := F) (m ((c : Thread nD τ).loc main_arg1)) :=
  (keep_host hostOps2).trans (W6_v31 m ρ c)
theorem W8_v31 (c : Dev nD) : W8 m ρ c (Proc.devRef .tc main_v31) = val_main_v31 (F := F) (m ((c : Thread nD τ).loc main_arg1)) :=
  (W8_of_ne m ρ c main_v31 (by decide)).trans (W7_v31 m ρ c)

/-! ### main_arg4 -/
theorem W4_arg4 (c : Dev nD) : W4 m ρ c (Proc.devRef .tc main_arg4) = m ((c : Thread nD τ).loc main_arg4) :=
  (W4_of_ne m ρ c main_arg4 (by decide)).trans (W3_arg4 m ρ c)

/-! ### main_arg5 -/
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (keep_host hostOps1).trans (W4_arg5 m ρ c)

/-! ### main_arg6 -/
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (keep_host hostOps1).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)

/-! ### main_arg7 -/
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (keep_host hostOps1).trans (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W7_arg7 (c : Dev nD) : W7 m ρ c (Proc.devRef .tc main_arg7) = m ((c : Thread nD τ).loc main_arg7) :=
  (keep_host hostOps2).trans (W6_arg7 m ρ c)

/-! ### main_arg8 -/
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (keep_host hostOps1).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (keep_host hostOps2).trans (W6_arg8 m ρ c)
theorem W8_arg8 (c : Dev nD) : W8 m ρ c (Proc.devRef .tc main_arg8) = m ((c : Thread nD τ).loc main_arg8) :=
  (W8_of_ne m ρ c main_arg8 (by decide)).trans (W7_arg8 m ρ c)

/-! ### main_arg2 -/
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (keep_host hostOps1).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (keep_host hostOps2).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (keep_host hostOps3).trans (W8_arg2 m ρ c)
theorem W10_arg2 (c : Dev nD) : W10 m ρ c (Proc.devRef .tc main_arg2) = m ((c : Thread nD τ).loc main_arg2) :=
  (W10_of_ne m ρ c main_arg2 (by decide)).trans (W9_arg2 m ρ c)

/-! ### main_arg9 -/
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (keep_host hostOps1).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (keep_host hostOps2).trans (W6_arg9 m ρ c)
theorem W8_arg9 (c : Dev nD) : W8 m ρ c (Proc.devRef .tc main_arg9) = m ((c : Thread nD τ).loc main_arg9) :=
  (W8_of_ne m ρ c main_arg9 (by decide)).trans (W7_arg9 m ρ c)
theorem W9_arg9 (c : Dev nD) : W9 m ρ c (Proc.devRef .tc main_arg9) = m ((c : Thread nD τ).loc main_arg9) :=
  (keep_host hostOps3).trans (W8_arg9 m ρ c)
theorem W10_arg9 (c : Dev nD) : W10 m ρ c (Proc.devRef .tc main_arg9) = m ((c : Thread nD τ).loc main_arg9) :=
  (W10_of_ne m ρ c main_arg9 (by decide)).trans (W9_arg9 m ρ c)

/-! ### main_arg10 -/
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (keep_host hostOps1).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (keep_host hostOps2).trans (W6_arg10 m ρ c)
theorem W8_arg10 (c : Dev nD) : W8 m ρ c (Proc.devRef .tc main_arg10) = m ((c : Thread nD τ).loc main_arg10) :=
  (W8_of_ne m ρ c main_arg10 (by decide)).trans (W7_arg10 m ρ c)
theorem W9_arg10 (c : Dev nD) : W9 m ρ c (Proc.devRef .tc main_arg10) = m ((c : Thread nD τ).loc main_arg10) :=
  (keep_host hostOps3).trans (W8_arg10 m ρ c)
theorem W10_arg10 (c : Dev nD) : W10 m ρ c (Proc.devRef .tc main_arg10) = m ((c : Thread nD τ).loc main_arg10) :=
  (W10_of_ne m ρ c main_arg10 (by decide)).trans (W9_arg10 m ρ c)

end Cert.KernelIdeal.Keep

end
-- ==== Proof.KStage.lean ====
/-
  The host operations between the kernel's regions, stage by stage.

  After each dense layer the program gathers the layer's rows along the source column, scales each gathered
  row by its edge weight, adds the rows into the destination column's rows of a zero array, and adds the
  bias. After the pooling it counts the nodes of each graph, divides each graph's sums by its count (at least
  one), multiplies by the read-out weight and adds the read-out bias. Given what the region before a stage
  left, the stage's result is the reference's value of the same name: the operations are the same, in the
  same order, on the same operands.
-/
import proofs.«420952_j2327872274533_2_alg».proof.Proof.Gen.KernelIdeal.Frame
import proofs.«420952_j2327872274533_2_alg».proof.Proof.RefRead
import proofs.«420952_j2327872274533_2_alg».proof.Proof.KKeep
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v31 val_main_v32 val_main_v48 val_main_v50 val_main_v66 val_main_v68 val_main_v84 val_main_v87 val_main_v101)

variable {F : FTy → Type} [FloatOps F]
variable (m : (ℓ : Loc nD τ sig) → Buf (Elt F) ℓ) (ρ : Dev nD → PrngReg)

/-- No operation of the stretch writes the buffer: it holds after the stretch what it held before. -/
local macro "keep_host " ops:ident : term => `(StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

open Cert.KernelIdeal.Keep

/-- After the first dense layer: gather, scale, scatter-add, bias. -/
theorem W5_v48 (c : Dev nD)
    (h32 : W4 m ρ c (Proc.devRef .tc main_v32) = val_main_v32 (F := F) (m ((c : Thread nD τ).loc main_arg0)) (m ((c : Thread nD τ).loc main_arg3))) :
    W5 m ρ c (Proc.devRef .tc main_v48) = val_main_v48 (F := F) (m ((c : Thread nD τ).loc main_arg0)) (m ((c : Thread nD τ).loc main_arg1)) (m ((c : Thread nD τ).loc main_arg3)) (m ((c : Thread nD τ).loc main_arg4)) := by
  have h3 := W4_v3 m ρ c
  have h6 := W4_v6 m ρ c
  have h31 := W4_v31 m ρ c
  have h4 := W4_arg4 m ρ c
  show StableHlo.after hostOps1 (W4 m ρ c) (Proc.devRef .tc main_v48) = _
  revert h32 h3 h6 h31 h4
  generalize W4 m ρ c = W
  intro h32 h3 h6 h31 h4
  simp only [hostOps1]
  after_results_simp
  rw [h32, h3, h6, h31, h4]
  rfl

/-- After the second dense layer. -/
theorem W7_v65 (c : Dev nD)
    (h49 : W6 m ρ c (Proc.devRef .tc main_v49) = val_main_v50 (F := F) (m ((c : Thread nD τ).loc main_arg0)) (m ((c : Thread nD τ).loc main_arg1)) (m ((c : Thread nD τ).loc main_arg3)) (m ((c : Thread nD τ).loc main_arg4)) (m ((c : Thread nD τ).loc main_arg5))) :
    W7 m ρ c (Proc.devRef .tc main_v65) = val_main_v66 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h3 := W6_v3 m ρ c
  have h6 := W6_v6 m ρ c
  have h31 := W6_v31 m ρ c
  have h4 := W6_arg6 m ρ c
  show StableHlo.after hostOps2 (W6 m ρ c) (Proc.devRef .tc main_v65) = _
  revert h49 h3 h6 h31 h4
  generalize W6 m ρ c = W
  intro h49 h3 h6 h31 h4
  simp only [hostOps2]
  after_results_simp
  rw [h49, h3, h6, h31, h4]
  rfl

/-- After the third dense layer. -/
theorem W9_v82 (c : Dev nD)
    (h66 : W8 m ρ c (Proc.devRef .tc main_v66) = val_main_v68 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W9 m ρ c (Proc.devRef .tc main_v82) = val_main_v84 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h3 := W8_v3 m ρ c
  have h6 := W8_v6 m ρ c
  have h31 := W8_v31 m ρ c
  have h4 := W8_arg8 m ρ c
  show StableHlo.after hostOps3 (W8 m ρ c) (Proc.devRef .tc main_v82) = _
  revert h66 h3 h6 h31 h4
  generalize W8 m ρ c = W
  intro h66 h3 h6 h31 h4
  simp only [hostOps3]
  after_results_simp
  rw [h66, h3, h6, h31, h4]
  rfl

/-- The graph ids as a column, for the pooling. -/
theorem W9_v83 (c : Dev nD) :
    W9 m ρ c (Proc.devRef .tc main_v83) = (shapeCast S50000x1 (m ((c : Thread nD τ).loc main_arg2)) shapeCasts_S50000_S50000x1 : IVec S50000x1 32) := by
  have h2 := W8_arg2 m ρ c
  show StableHlo.after hostOps3 (W8 m ρ c) (Proc.devRef .tc main_v83) = _
  revert h2
  generalize W8 m ρ c = W
  intro h2
  simp only [hostOps3]
  after_results_simp
  rw [h2]
  rfl

/-- After the pooling: the counts, the means, the read-out. -/
theorem W11_v98 (c : Dev nD)
    (h84 : W10 m ρ c (Proc.devRef .tc main_v84) = val_main_v87 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W11 m ρ c (Proc.devRef .tc main_v98) = val_main_v101 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h2 := W10_arg2 m ρ c
  have h9 := W10_arg9 m ρ c
  have h10 := W10_arg10 m ρ c
  show StableHlo.after hostOps4 (W10 m ρ c) (Proc.devRef .tc main_v98) = _
  revert h84 h2 h9 h10
  generalize W10 m ρ c = W
  intro h84 h2 h9 h10
  simp only [hostOps4]
  after_results_simp
  rw [h84, h2, h9, h10]
  rfl

end Cert.KernelIdeal.Stage

end
-- ==== Proof.KArrays.lean ====
/-
  The arrays of the four kernel regions, named at their shapes.

  Each dense layer reads a 50000x128 array of node features and a 128x128 weight and leaves a 50000x128 array;
  the pooling region reads the 50000x128 features of the last layer and the 50000x1 column of graph ids and
  leaves the 64x128 table of per-graph sums. The contents a region finds when it is entered are a parameter.
-/
import proofs.«420952_j2327872274533_2_alg».proof.Proof.Gen.KernelIdeal.Frame
import Idealize.ShloMosaic.PureOps.Ideal

set_option maxRecDepth 16384

noncomputable section

namespace Cert.KernelIdeal.Arr

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- The first layer's input, its weight, and what the region leaves. -/
abbrev in0 (c : Dev nD) : FVec Ideal S50000x128 .f32 := V c main_arg0
abbrev wt0 (c : Dev nD) : FVec Ideal S128x128 .f32 := V c main_arg3
abbrev out0 (c : Dev nD) : FVec Ideal S50000x128 .f32 := (dat0 (F := Ideal) V c).arrAt 2 cfg0.N
/-- The second layer's. -/
abbrev in1 (c : Dev nD) : FVec Ideal S50000x128 .f32 := V c main_v48
abbrev wt1 (c : Dev nD) : FVec Ideal S128x128 .f32 := V c main_arg5
abbrev out1 (c : Dev nD) : FVec Ideal S50000x128 .f32 := (dat1 (F := Ideal) V c).arrAt 2 cfg1.N
/-- The third layer's. -/
abbrev in2 (c : Dev nD) : FVec Ideal S50000x128 .f32 := V c main_v65
abbrev wt2 (c : Dev nD) : FVec Ideal S128x128 .f32 := V c main_arg7
abbrev out2 (c : Dev nD) : FVec Ideal S50000x128 .f32 := (dat2 (F := Ideal) V c).arrAt 2 cfg2.N
/-- The pooling region's node features, its column of graph ids, and the table of sums it leaves. -/
abbrev feat (c : Dev nD) : FVec Ideal S50000x128 .f32 := V c main_v82
abbrev gid (c : Dev nD) : IVec S50000x1 32 := V c main_v83
abbrev sums (c : Dev nD) : FVec Ideal S64x128 .f32 := (dat3 (F := Ideal) V c).arrAt 2 cfg3.N

end Cert.KernelIdeal.Arr

end
-- ==== Proof.Spec.lean ====
/-
  Where an index word lands in an axis of N entries.

  A 32-bit index word is read as a signed integer. It names entry n of an axis of N entries when that
  integer is n and lies in [0, N); outside that range it names nothing, and an update addressed by it is
  dropped.
-/
import Idealize.ShloMosaic.PureOps.Ideal

namespace Cert.Spec

/-- The entry of an axis of N entries that the word w names: its signed value when that lies in [0, N),
    nothing otherwise. -/
def landIx (N : Nat) (w : BitVec 32) : Option (Fin N) :=
  if h : 0 ≤ w.toInt ∧ w.toInt < N then some ⟨w.toInt.toNat, by omega⟩ else none

end Cert.Spec
-- ==== Proof.LibGatherScatterRows.lean ====
/-
  A row-gather and an accumulating row-scatter, read at an index.

  A table of N rows and C columns is read through a column of E integer index words: result row e is the
  table's row at the e-th word, the word read as a signed integer and clamped into [0, N - 1]. In the other
  direction E update rows are added into a table of N rows: update row e lands in the row its word names,
  the word read as a signed integer and NOT clamped, and is dropped when that row is outside [0, N). Both
  facts are stated for arbitrary extents, from the dimension numbers alone. The scatter of E scalars into a
  vector of N entries is the same with the column axis left out.
-/
import Idealize.ShloMosaic.PureOps.Ideal
import Idealize.ShloMosaic.PureOps.Ideal.Laws
import Idealize.ShloMosaic.Lib.ValueIdx
import Idealize.ShloMosaic.Lib.ValueIdxRank1
import proofs.«420952_j2327872274533_2_alg».proof.Proof.Spec

noncomputable section

open scoped BigOperators

namespace Cert.LibRows

open Idealize.ShloMosaic Idealize.ShloMosaic.ValueIdx

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-! ## Where an update of the row scatter lands -/

section Rows
variable {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
include huw hiw hsd hivd

/-- On the row axis the window of update (e, j') starts at the e-th index word, read signed. -/
theorem rows_start0 (idx : IVec ⟨2, ![E, 1]⟩ 32) (e : Fin E) (j' : Fin C) :
    d.start (ix2 e j') idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- On the column axis the window starts at 0: no index word names that axis. -/
theorem rows_start1 (idx : IVec ⟨2, ![E, 1]⟩ 32) (e : Fin E) (j' : Fin C) :
    d.start (ix2 e j') idx 1 = 0 := by
  obtain ⟨uw, iw, sd, ivd, wf⟩ := d
  simp only at huw hiw hsd hivd
  subst huw hiw hsd hivd
  rfl

/-- The row axis is an inserted one: the window coordinate there is 0. -/
theorem rows_window0 (e : Fin E) (j' : Fin C) : d.window (ix2 e j') 0 = 0 := by
  obtain ⟨uw, iw, sd, ivd, wf⟩ := d
  simp only at huw hiw hsd hivd
  subst huw hiw hsd hivd
  rfl

/-- On the column axis the window coordinate is the update's column. -/
theorem rows_window1 (e : Fin E) (j' : Fin C) : d.window (ix2 e j') 1 = j'.val := by
  obtain ⟨uw, iw, sd, ivd, wf⟩ := d
  simp only at huw hiw hsd hivd
  subst huw hiw hsd hivd
  rfl

/-- Update (e, j') lands in column j' of the row its index word names, and nowhere when that row is
    outside [0, N). -/
theorem rows_resultIdx (idx : IVec ⟨2, ![E, 1]⟩ 32) (e : Fin E) (j' : Fin C) :
    d.resultIdx? (ix2 e j') idx = (Cert.Spec.landIx N (idx (ix2 e 0))).map (fun n => ix2 n j') := by
  have h0 := rows_start0 d huw hiw hsd hivd idx e j'
  have h1 := rows_start1 d huw hiw hsd hivd idx e j'
  have w0 := rows_window0 d huw hiw hsd hivd e j'
  have w1 := rows_window1 d huw hiw hsd hivd e j'
  unfold ScatterDims.resultIdx? Cert.Spec.landIx
  by_cases h : 0 ≤ (idx (ix2 e 0)).toInt ∧ (idx (ix2 e 0)).toInt < N
  · -- in range on both axes: the column always is
    have hall : ∀ a : Fin 2, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + d.window (ix2 e j') 0 ∧ d.start (ix2 e j') idx 0 + d.window (ix2 e j') 0 < (N : Int)
        rw [h0, w0]; omega
      | ⟨1, _⟩ =>
        show 0 ≤ d.start (ix2 e j') idx 1 + d.window (ix2 e j') 1 ∧ d.start (ix2 e j') idx 1 + d.window (ix2 e j') 1 < (C : Int)
        rw [h1, w1]; have := j'.isLt; omega
    rw [dif_pos hall, dif_pos h]
    simp only [Option.map_some]
    congr 1
    funext a
    apply Fin.ext
    match a with
    | ⟨0, _⟩ =>
      show (d.start (ix2 e j') idx 0 + d.window (ix2 e j') 0).toNat = (idx (ix2 e 0)).toInt.toNat
      rw [h0, w0]; simp
    | ⟨1, _⟩ =>
      show (d.start (ix2 e j') idx 1 + d.window (ix2 e j') 1).toNat = j'.val
      rw [h1, w1]; simp
  · -- out of range on the row axis: the update is dropped
    have hnall : ¬ ∀ a : Fin 2, 0 ≤ d.start (ix2 e j') idx a + d.window (ix2 e j') a
        ∧ d.start (ix2 e j') idx a + d.window (ix2 e j') a < (⟨2, ![N, C]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Rows

/-! ## Where an update of the scalar scatter lands -/

section Vec
variable {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
include huw hiw hsd hivd

/-- The window of update e starts at the e-th index word, read signed. -/
theorem vec_start0 (idx : IVec ⟨2, ![E, 1]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- The one axis is an inserted one: the window coordinate there is 0. -/
theorem vec_window0 (e : Fin E) : d.window (ix1 e) 0 = 0 := by
  obtain ⟨uw, iw, sd, ivd, wf⟩ := d
  simp only at huw hiw hsd hivd
  subst huw hiw hsd hivd
  rfl

/-- Update e lands at the entry its index word names, and nowhere when that is outside [0, N). -/
theorem vec_resultIdx (idx : IVec ⟨2, ![E, 1]⟩ 32) (e : Fin E) :
    d.resultIdx? (ix1 e) idx = (Cert.Spec.landIx N (idx (ix2 e 0))).map ix1 := by
  have h0 := vec_start0 d huw hiw hsd hivd idx e
  have w0 := vec_window0 d huw hiw hsd hivd e
  unfold ScatterDims.resultIdx? Cert.Spec.landIx
  by_cases h : 0 ≤ (idx (ix2 e 0)).toInt ∧ (idx (ix2 e 0)).toInt < N
  · have hall : ∀ a : Fin 1, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
    rw [dif_pos hall, dif_pos h]
    simp only [Option.map_some]
    congr 1
    funext a
    apply Fin.ext
    match a with
    | ⟨0, _⟩ =>
      show (d.start (ix1 e) idx 0 + d.window (ix1 e) 0).toNat = (idx (ix2 e 0)).toInt.toNat
      rw [h0, w0]; simp
  · have hnall : ¬ ∀ a : Fin 1, 0 ≤ d.start (ix1 e) idx a + d.window (ix1 e) a
        ∧ d.start (ix1 e) idx a + d.window (ix1 e) a < (⟨1, ![N]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Vec

/-! ## The scatters read at an index -/

/-- An accumulating row scatter read at (n, j): the table's entry plus the sum, over the update rows e whose
    index word lands in row n (read signed, not clamped, dropped outside [0, N)), of the update's entry (e, j). -/
theorem scatterAdd_rows {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![E, 1]⟩ 32) (upd : (⟨2, ![E, C]⟩ : Shape).Idx → EReal) (n : Fin N) (j : Fin C) :
    Ideal.hostScatterAdd d x idx upd (ix2 n j)
      = x (ix2 n j) + ∑ e ∈ Finset.univ.filter (fun e : Fin E => Cert.Spec.landIx N (idx (ix2 e 0)) = some n), upd (ix2 e j) := by
  -- update (e, j') lands at (n, j) exactly when its word lands in row n and j' = j
  have key : ∀ (e : Fin E) (j' : Fin C), d.resultIdx? (ix2 e j') idx = some (ix2 n j)
      ↔ (Cert.Spec.landIx N (idx (ix2 e 0)) = some n ∧ j' = j) := by
    intro e j'
    rw [rows_resultIdx d huw hiw hsd hivd idx e j']
    cases hL : Cert.Spec.landIx N (idx (ix2 e 0)) with
    | none => simp
    | some m => simp only [Option.map_some, Option.some.injEq, ix2_inj]
  unfold Ideal.hostScatterAdd
  congr 1
  -- the sum over the update indices as a double sum; for each e the inner sum keeps at most the term j' = j
  rw [Finset.sum_filter, sum_idx2, Finset.sum_filter]
  refine Finset.sum_congr rfl fun e _ => ?_
  by_cases hl : Cert.Spec.landIx N (idx (ix2 e 0)) = some n
  · rw [if_pos hl, Finset.sum_eq_single j]
    · rw [if_pos ((key e j).2 ⟨hl, rfl⟩)]
    · intro j' _ hne
      rw [if_neg (fun h => hne ((key e j').1 h).2)]
    · intro h; exact absurd (Finset.mem_univ _) h
  · rw [if_neg hl]
    apply Finset.sum_eq_zero
    intro j' _
    rw [if_neg (fun h => hl ((key e j').1 h).1)]

/-- An accumulating scatter of scalars into a vector, read at n: the vector's entry plus the sum of the
    updates e whose index word lands at n (read signed, not clamped, dropped outside [0, N)). -/
theorem scatterAdd_vec {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![E, 1]⟩ 32) (upd : (⟨1, ![E]⟩ : Shape).Idx → EReal) (n : Fin N) :
    Ideal.hostScatterAdd d x idx upd (ix1 n)
      = x (ix1 n) + ∑ e ∈ Finset.univ.filter (fun e : Fin E => Cert.Spec.landIx N (idx (ix2 e 0)) = some n), upd (ix1 e) := by
  have key : ∀ (e : Fin E), d.resultIdx? (ix1 e) idx = some (ix1 n)
      ↔ Cert.Spec.landIx N (idx (ix2 e 0)) = some n := by
    intro e
    rw [vec_resultIdx d huw hiw hsd hivd idx e]
    cases hL : Cert.Spec.landIx N (idx (ix2 e 0)) with
    | none => simp
    | some m => simp only [Option.map_some, Option.some.injEq, ix1_inj]
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix1 n) then upd (ix1 e) else 0) = _
  by_cases hl : Cert.Spec.landIx N (idx (ix2 e 0)) = some n
  · rw [if_pos hl, if_pos ((key e).2 hl)]
  · rw [if_neg hl, if_neg (fun h => hl ((key e).1 h))]

/-- The row scatter as the host's accumulating scatter states it over the extended reals. -/
theorem scatterAdd_rows' {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => Cert.Spec.landIx N (idx (ix2 e 0)) = some n), upd (ix2 e j) :=
  scatterAdd_rows d huw hiw hsd hivd x idx upd n j

/-- The scalar scatter as the host's accumulating scatter states it over the extended reals. -/
theorem scatterAdd_vec' {φ : FTy} {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![E, 1]⟩ 32) (upd : FVec Ideal ⟨1, ![E]⟩ φ) (n : Fin N) :
    Host.scatterAdd (F := Ideal) d x idx upd (ix1 n)
      = x (ix1 n) + ∑ e ∈ Finset.univ.filter (fun e : Fin E => Cert.Spec.landIx N (idx (ix2 e 0)) = some n), upd (ix1 e) :=
  scatterAdd_vec d huw hiw hsd hivd x idx upd n

end Cert.LibRows

end
-- ==== Proof.RefBridge.lean ====
/-
  The reference's stages, read at an index.

  The dense product of a 50000x128 array with a 128x128 weight is, at row p and column q, the sum over k of
  the array's entry (p, k) times the weight's entry (k, q). The rectified input of the second and third layers
  enters that product as max(x, 0). The pooled sums add, into row g of a zero 64x128 table, every row n of the
  node features whose graph id is g: a 32-bit id word names row g exactly when the word is g itself, since g is
  below 64; an id outside [0, 64) names no row and its node is dropped.
-/
import proofs.«420952_j2327872274533_2_alg».proof.Proof.RefRead
import proofs.«420952_j2327872274533_2_alg».proof.Proof.LibGatherScatterRows

noncomputable section

open scoped BigOperators

namespace Cert.ReferenceIdeal.Bridge

open Cert.ReferenceIdeal Cert.ReferenceIdeal.ReadP Idealize.ShloMosaic Idealize.ShloMosaic.ValueIdx

/-- A 32-bit word names entry g of an axis of 64 entries exactly when it is the word g. -/
theorem landIx_eq_some_iff (w : BitVec 32) (g : Fin 64) :
    Cert.Spec.landIx 64 w = some g ↔ w = BitVec.ofNat 32 g.val := by
  have hg := g.isLt
  have hw := w.isLt
  unfold Cert.Spec.landIx
  constructor
  · intro h
    split at h
    · rename_i hh
      have h' : w.toInt.toNat = g.val := congrArg Fin.val (Option.some.inj h)
      apply BitVec.eq_of_toNat_eq
      rw [BitVec.toNat_ofNat]
      rw [BitVec.toInt_eq_toNat_cond] at hh h'
      split at hh <;> split at h' <;> omega
    · exact absurd h (by simp)
  · rintro rfl
    have hto : (BitVec.ofNat 32 g.val).toInt = (g.val : Int) := by
      rw [BitVec.toInt_eq_toNat_cond, BitVec.toNat_ofNat]
      have : g.val % 2 ^ 32 = g.val := Nat.mod_eq_of_lt (by omega)
      rw [this]
      split <;> omega
    rw [dif_pos (by rw [hto]; omega)]
    congr 1
    apply Fin.ext
    show (BitVec.ofNat 32 g.val).toInt.toNat = g.val
    rw [hto]; simp

/-- The dense product read at (p, q). -/
theorem dot_at (x : (⟨S50000x128, .f32⟩ : BufTy).Contents (Elt Ideal)) (w : (⟨S128x128, .f32⟩ : BufTy).Contents (Elt Ideal))
    (p : Fin 50000) (q : Fin 128) :
    val_main_v32 (F := Ideal) x w (ix2 p q) = ∑ k : Fin 128, x (ix2 p k) * w (ix2 k q) := by
  rw [val_main_v32_apply]
  refine Finset.sum_congr rfl fun k _ => ?_
  have el : lidx_main_v32 (ix2 p q) k = ix2 p k := funext fun a => by
    match a with
    | ⟨0, _⟩ => rfl
    | ⟨1, _⟩ => rfl
  have er : ridx_main_v32 (ix2 p q) k = ix2 k q := funext fun a => by
    match a with
    | ⟨0, _⟩ => rfl
    | ⟨1, _⟩ => rfl
  rw [el, er]

/-- The rectified array read at an index: the maximum of the entry and zero. -/
theorem relu_at (y : FVec Ideal S50000x128 .f32) (i : S50000x128.Idx) :
    maximumf y (val_main_call1_v0 (F := Ideal)) i = max (y i) 0 := by
  show max (y i) (val_main_call1_v0 (F := Ideal) i) = _
  rw [val_main_call1_v0_apply, val_main_call1_cst_apply]
  show max (y i) (Ideal.ofBits .f32 0x00000000#32) = _
  rw [Ideal.ofBits_zero_f32]

/-- The same for the third layer's rectified input. -/
theorem relu_at' (y : FVec Ideal S50000x128 .f32) (i : S50000x128.Idx) :
    maximumf y (val_main_call2_v0 (F := Ideal)) i = max (y i) 0 := by
  show max (y i) (val_main_call2_v0 (F := Ideal) i) = _
  rw [val_main_call2_v0_apply, val_main_call2_cst_apply]
  show max (y i) (Ideal.ofBits .f32 0x00000000#32) = _
  rw [Ideal.ofBits_zero_f32]

/-- The pooled sums read at (g, h): the sum, over the nodes whose graph id is the word g, of the node's
    feature h. -/
theorem segsum_at (ids : IVec S50000 32) (y : FVec Ideal S50000x128 .f32)
    (g : Fin 64) (h : Fin 128) :
    Host.scatterAdd (F := Ideal) (φ := .f32) scatter_S64x128_S50000x1_S50000x128_1_0_0_1 (val_main_v85 (F := Ideal)) (val_main_v86 (F := Ideal) ids) y (ix2 g h)
      = ∑ n : Fin 50000, (if ids (ix1 n) = BitVec.ofNat 32 g.val then y (ix2 n h) else 0) := by
  rw [Cert.LibRows.scatterAdd_rows' scatter_S64x128_S50000x1_S50000x128_1_0_0_1 rfl rfl rfl rfl]
  rw [val_main_v85_apply, val_main_cst_16_apply]
  show Ideal.ofBits .f32 0x00000000#32 + _ = _
  rw [Ideal.ofBits_zero_f32, zero_add, Finset.sum_filter]
  refine Finset.sum_congr rfl fun n _ => ?_
  rw [val_main_v86_apply]
  have e : idx_main_v86 (ix2 n 0) = ix1 n := funext fun a => by
    match a with
    | ⟨0, _⟩ => rfl
  rw [e]
  exact if_congr (landIx_eq_some_iff _ g) rfl rfl

end Cert.ReferenceIdeal.Bridge

end
-- ==== Proof.KValue.lean ====
/-
  The kernel's result is the reference's.

  The first dense layer leaves the product of the node features with the first weight; the second and third
  leave the product of the rectified output of the layer before with their weights; the pooling leaves, per
  graph, the sum of the last layer's rows over the graph's nodes. Each of these is the reference's value of
  the same stage, entry by entry: a dense layer's entry (p, q) and the reference's product are the same sum
  over k, and the pooling's entry (g, h) and the reference's scatter are the same sum over the nodes whose
  graph id is g. The host operations between them are the same on both sides, so the whole result is.
  What each region leaves is taken here as a hypothesis about the region alone.
-/
import proofs.«420952_j2327872274533_2_alg».proof.Proof.KStage
import proofs.«420952_j2327872274533_2_alg».proof.Proof.KArrays
import proofs.«420952_j2327872274533_2_alg».proof.Proof.RefBridge
import Idealize.ShloMosaic.Lib.ValueIdx
import Idealize.ShloMosaic.Lib.Pipeline.Value

set_option maxRecDepth 16384

noncomputable section

open scoped BigOperators

namespace Cert.KernelIdeal.Value

open Cert.KernelIdeal Cert.KernelIdeal.Gen Cert.KernelIdeal.Arr Cert.KernelIdeal.Host0 Cert.KernelIdeal.Keep Cert.KernelIdeal.Stage
open Idealize.ShloMosaic Idealize.ShloMosaic.TcCoe Idealize.SL.Sem Idealize.ShloMosaic.ValueIdx
open Cert.ReferenceIdeal.ReadP (val_main_v32 val_main_v48 val_main_v49 val_main_v50 val_main_v66 val_main_v67 val_main_v68 val_main_v84 val_main_v85 val_main_v86 val_main_v87 val_main_v101)
open Cert.ReferenceIdeal (scatter_S64x128_S50000x1_S50000x128_1_0_0_1)

variable (m : (ℓ : Loc nD τ sig) → Buf (Elt Ideal) ℓ) (ρ : Dev nD → PrngReg)

/-- The graph ids laid out as a column read at row n: the n-th id. -/
theorem column_at (ids : IVec S50000 32) (n : Fin 50000) :
    (shapeCast S50000x1 ids shapeCasts_S50000_S50000x1 : IVec S50000x1 32) (ix2 n 0) = ids (ix1 n) :=
  shapeCast_apply ids shapeCasts_S50000_S50000x1 (ix2 n 0) (ix1 n)
    (by rewrite [Shape.rowMajor_val_two, Shape.rowMajor_val_one]; show n.val = n.val * 1 + 0; omega)

section
variable (hD0 : ∀ (c : Dev nD) (p : Fin 50000) (q : Fin 128), out0 (V3 m ρ) c (ix2 p q) = ∑ k : Fin 128, in0 (V3 m ρ) c (ix2 p k) * wt0 (V3 m ρ) c (ix2 k q))
include hD0

/-- What the first dense layer leaves is the reference's first product. -/
theorem W4_v32 (c : Dev nD) : W4 m ρ c (Proc.devRef .tc main_v32) = val_main_v32 (F := Ideal) (m ((c : Thread nD τ).loc main_arg0)) (m ((c : Thread nD τ).loc main_arg3)) := by
  refine (W4_arr m ρ c 2).trans ?_
  show out0 (V3 m ρ) c = _
  refine funext fun i => ?_
  obtain ⟨p, q, rfl⟩ : ∃ (p : Fin 50000) (q : Fin 128), i = ix2 p q := ⟨i 0, i 1, eq_ix2 i⟩
  rw [Cert.ReferenceIdeal.Bridge.dot_at]
  refine (hD0 c p q).trans ?_
  have e0 : in0 (V3 m ρ) c = m ((c : Thread nD τ).loc main_arg0) := W3_arg0 m ρ c
  have e3 : wt0 (V3 m ρ) c = m ((c : Thread nD τ).loc main_arg3) := W3_arg3 m ρ c
  rw [e0, e3]

variable (hD1 : ∀ (c : Dev nD) (p : Fin 50000) (q : Fin 128), out1 (V5 m ρ) c (ix2 p q) = ∑ k : Fin 128, max (in1 (V5 m ρ) c (ix2 p k)) 0 * wt1 (V5 m ρ) c (ix2 k q))
include hD1

/-- What the second dense layer leaves is the reference's second product, of the rectified first layer. -/
theorem W6_v49 (c : Dev nD) : W6 m ρ c (Proc.devRef .tc main_v49) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 2).trans ?_
  show out1 (V5 m ρ) c = _
  refine funext fun i => ?_
  obtain ⟨p, q, rfl⟩ : ∃ (p : Fin 50000) (q : Fin 128), i = ix2 p q := ⟨i 0, i 1, eq_ix2 i⟩
  show _ = val_main_v32 (F := Ideal) (val_main_v49 (F := Ideal) (m ((c : Thread nD τ).loc main_arg0)) (m ((c : Thread nD τ).loc main_arg1)) (m ((c : Thread nD τ).loc main_arg3)) (m ((c : Thread nD τ).loc main_arg4))) (m ((c : Thread nD τ).loc main_arg5)) (ix2 p q)
  rw [Cert.ReferenceIdeal.Bridge.dot_at]
  refine (hD1 c p q).trans ?_
  have e1 : in1 (V5 m ρ) c = val_main_v48 (F := Ideal) (m ((c : Thread nD τ).loc main_arg0)) (m ((c : Thread nD τ).loc main_arg1)) (m ((c : Thread nD τ).loc main_arg3)) (m ((c : Thread nD τ).loc main_arg4)) := W5_v48 m ρ c (W4_v32 m ρ hD0 c)
  have e5 : wt1 (V5 m ρ) c = m ((c : Thread nD τ).loc main_arg5) := W5_arg5 m ρ c
  rw [e1, e5]
  refine Finset.sum_congr rfl fun k _ => ?_
  rw [show val_main_v49 (F := Ideal) (m ((c : Thread nD τ).loc main_arg0)) (m ((c : Thread nD τ).loc main_arg1)) (m ((c : Thread nD τ).loc main_arg3)) (m ((c : Thread nD τ).loc main_arg4)) (ix2 p k) = max (val_main_v48 (F := Ideal) (m ((c : Thread nD τ).loc main_arg0)) (m ((c : Thread nD τ).loc main_arg1)) (m ((c : Thread nD τ).loc main_arg3)) (m ((c : Thread nD τ).loc main_arg4)) (ix2 p k)) 0
    from Cert.ReferenceIdeal.Bridge.relu_at _ _]

variable (hD2 : ∀ (c : Dev nD) (p : Fin 50000) (q : Fin 128), out2 (V7 m ρ) c (ix2 p q) = ∑ k : Fin 128, max (in2 (V7 m ρ) c (ix2 p k)) 0 * wt2 (V7 m ρ) c (ix2 k q))
include hD2

/-- What the third dense layer leaves is the reference's third product, of the rectified second layer. -/
theorem W8_v66 (c : Dev nD) : W8 m ρ c (Proc.devRef .tc main_v66) = val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ?_
  show out2 (V7 m ρ) c = _
  refine funext fun i => ?_
  obtain ⟨p, q, rfl⟩ : ∃ (p : Fin 50000) (q : Fin 128), i = ix2 p q := ⟨i 0, i 1, eq_ix2 i⟩
  show _ = val_main_v32 (F := Ideal) (val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) (ix2 p q)
  rw [Cert.ReferenceIdeal.Bridge.dot_at]
  refine (hD2 c p q).trans ?_
  have e1 : in2 (V7 m ρ) c = val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := W7_v65 m ρ c (W6_v49 m ρ hD0 hD1 c)
  have e7 : wt2 (V7 m ρ) c = m ((c : Thread nD τ).loc main_arg7) := W7_arg7 m ρ c
  rw [e1, e7]
  refine Finset.sum_congr rfl fun k _ => ?_
  rw [show val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 p k) = max (val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 p k)) 0
    from Cert.ReferenceIdeal.Bridge.relu_at' _ _]

variable (hP : ∀ (c : Dev nD) (g : Fin 64) (h : Fin 128), sums (V9 m ρ) c (ix2 g h) = ∑ n : Fin 50000, (if gid (V9 m ρ) c (ix2 n 0) = BitVec.ofNat 32 g.val then feat (V9 m ρ) c (ix2 n h) else 0))
include hP

/-- What the pooling leaves is the reference's per-graph sums. -/
theorem W10_v84 (c : Dev nD) : W10 m ρ c (Proc.devRef .tc main_v84) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ?_
  show sums (V9 m ρ) c = _
  refine funext fun i => ?_
  obtain ⟨g, h, rfl⟩ : ∃ (g : Fin 64) (h : Fin 128), i = ix2 g h := ⟨i 0, i 1, eq_ix2 i⟩
  show _ = Host.scatterAdd (F := Ideal) (φ := .f32) scatter_S64x128_S50000x1_S50000x128_1_0_0_1 (val_main_v85 (F := Ideal)) (val_main_v86 (F := Ideal) (m ((c : Thread nD τ).loc main_arg2))) (val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 g h)
  rw [Cert.ReferenceIdeal.Bridge.segsum_at]
  refine (hP c g h).trans ?_
  have ef : feat (V9 m ρ) c = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := W9_v82 m ρ c (W8_v66 m ρ hD0 hD1 hD2 c)
  have eg : gid (V9 m ρ) c = (shapeCast S50000x1 (m ((c : Thread nD τ).loc main_arg2)) shapeCasts_S50000_S50000x1 : IVec S50000x1 32) := W9_v83 m ρ c
  rw [ef, eg]
  refine Finset.sum_congr rfl fun n _ => ?_
  rw [column_at]

/-- THE VALUE: after the last stretch the result buffer holds the reference's result of the launch arguments. -/
theorem result (c : Dev nD) : W11 m ρ c (Proc.devRef .tc main_v98) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  W11_v98 m ρ c (W10_v84 m ρ hD0 hD1 hD2 hP c)

end

end Cert.KernelIdeal.Value

end
-- ==== Proof.Dense0.lean ====
/-
  The first dense layer: the 50000x128 feature array times the 128x128 weight.

  The region runs over five grid points. Point t loads rows 10000 t … 10000 t + 9999 of the features and the whole
  weight, stores the 10000x128 product of the two blocks, and that block is written back to the same rows of the
  result. An entry of a stored block is a sum over the 128 shared indices of products of extended reals (narrowing
  an operand to bf16 changes no extended real, and the product accumulates into the zero block), so it is the
  entry of the whole product at the block entry's place in the array; the five row blocks cover the array, hence
  the array the region leaves is the whole product: entry (p, q) is the sum over k of feature (p, k) times
  weight (k, q).
-/
import proofs.«420952_j2327872274533_2_alg».proof.Proof.KArrays
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Dense0

open Cert.KernelIdeal Cert.KernelIdeal.Gen Cert.KernelIdeal.Arr
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The product block at an index -/

/-- The contraction of a 10000x128 block with the 128x128 weight keeps the block's row on the left operand's first axis … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … puts the summation index on its second axis … -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- … and on the weight's first axis … -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and keeps the block's column on the weight's second axis. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, q) of what one grid point stores: row r of its input block against column q of the weight. Narrowing to
    bf16 changes no extended real, and the product accumulates into the zero block. -/
theorem pay_apply (x0 : Vec Ideal S10000x128 .f32) (x1 : Vec Ideal S128x128 .f32) (r : Fin 10000) (q : Fin 128) :
    k0_pay1 x0 x1 (ix2 r q) = ∑ k : Fin 128, x0 (ix2 r k) * x1 (ix2 k q) := by
  unfold k0_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From the five row blocks to the whole array -/

/-- The whole product: entry (p, q) is row p of the features against column q of the weight. -/
abbrev prod (a : FVec Ideal S50000x128 .f32) (w : FVec Ideal S128x128 .f32) : FVec Ideal S50000x128 .f32 :=
  fun i => ∑ k : Fin 128, a (ix2 (n0 := 50000) (i 0) k) * w (ix2 (n1 := 128) k (i 1))

/-- The rows the grid's point t loads, and the weight as it loads it. -/
abbrev xblk (c : Dev nD) (t : Fin cfg0.N) : Vec Ideal S10000x128 .f32 := iblk0 V c 0 t
abbrev wblk (c : Dev nD) (t : Fin cfg0.N) : Vec Ideal S128x128 .f32 := iblk0 V c 1 t

theorem hz : (![0, 0] : Fin 2 → Nat) = fun _ => 0 := funext fun a => by fin_cases a <;> rfl

/-- Over the five points: the input's and the output's block index is (t, 0), the weight's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's input block is row 10000 t + r of the features. -/
theorem xblk_apply (c : Dev nD) (t : Fin cfg0.N) (r : Fin 10000) (k : Fin 128) (p : Fin 50000)
    (hp : p.val = t.val * 10000 + r.val) : xblk V c t (ix2 r k) = in0 V c (ix2 p k) := by
  obtain ⟨e0, e1, -⟩ := idx_facts t
  show V c main_arg0 (((cfg0.win 0).blk t).view.emb (ix2 r k)) = V c main_arg0 (ix2 p k)
  have h : ((cfg0.win 0).blk t).view.emb (ix2 r k) = ix2 p k := by
    funext a; apply Fin.ext
    match a with
    | ⟨0, _⟩ => show win0_0.index t (0 : Fin 2) * 10000 + 1 * r.val = p.val; omega
    | ⟨1, _⟩ => show win0_0.index t (1 : Fin 2) * 128 + 1 * k.val = k.val; omega
  rw [h]

/-- Every point loads the whole weight. -/
theorem wblk_apply (c : Dev nD) (t : Fin cfg0.N) (k q : Fin 128) : wblk V c t (ix2 k q) = wt0 V c (ix2 k q) := by
  obtain ⟨-, -, e2, e3, -⟩ := idx_facts t
  show V c main_arg3 (((cfg0.win 1).blk t).view.emb (ix2 k q)) = V c main_arg3 (ix2 k q)
  have h : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h]

/-- What a point stores, entry by entry, is the whole product at the entry's place in the array: for blocks x0, x1 that
    are rows 10000 n … of a and all of w. -/
theorem block_value (x0 : Vec Ideal S10000x128 .f32) (x1 : Vec Ideal S128x128 .f32)
    (a : FVec Ideal S50000x128 .f32) (w : FVec Ideal S128x128 .f32) (n : Nat)
    (hx : ∀ (r : Fin 10000) (k : Fin 128) (p : Fin 50000), p.val = n * 10000 + r.val → x0 (ix2 r k) = a (ix2 p k))
    (hw : ∀ k q : Fin 128, x1 (ix2 k q) = w (ix2 k q))
    (j : S10000x128.Idx) (i : S50000x128.Idx) (h0 : (i 0).val = n * 10000 + (j 0).val) (h1 : (i 1).val = (j 1).val) :
    k0_pay1 x0 x1 j = prod a w i := by
  obtain ⟨r, q, rfl⟩ : ∃ (r : Fin 10000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  rw [pay_apply]
  show _ = ∑ k : Fin 128, a (ix2 p k) * w (ix2 k q')
  exact Finset.sum_congr rfl fun k _ => by rw [hx r k p h0, hw]

/-- What point t writes back is block t of the whole product of the arrays the region finds. -/
theorem flushed_eq (c : Dev nD) (t : Fin cfg0.N) :
    (dat0 V c).flushed 2 t = ((cfg0.win 2).blk t).view.read (Elt Ideal) (prod (in0 V c) (wt0 V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext j
  show k0_pay1 (xblk V c t) (wblk V c t) j = prod (in0 V c) (wt0 V c) (((cfg0.win 2).blk t).view.emb j)
  refine block_value (xblk V c t) (wblk V c t) (in0 V c) (wt0 V c) t.val (xblk_apply V c t) (wblk_apply V c t) j _ ?_ ?_
  · show win0_2.index t (0 : Fin 2) * 10000 + 1 * (j 0).val = t.val * 10000 + (j 0).val; omega
  · show win0_2.index t (1 : Fin 2) * 128 + 1 * (j 1).val = (j 1).val; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Row p is written by point p / 10000: the five blocks cover the array. -/
theorem cover (i : S50000x128.Idx) : ∃ t : Fin cfg0.N, (cfg0.win 2).flush t = true ∧ i ∈ ((cfg0.win 2).blk t).view.set := by
  have hi0 : (i 0).val < 50000 := idx2_lt0 i
  have hi1 : (i 1).val < 128 := idx2_lt1 i
  have hN : grid0.N = 5 := N_0
  let t : Fin cfg0.N := ⟨(i 0).val / 10000, by show (i 0).val / 10000 < grid0.N; omega⟩
  have ht : t.val = (i 0).val / 10000 := rfl
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array the region leaves is the whole product. -/
theorem out_eq (c : Dev nD) : out0 V c = prod (in0 V c) (wt0 V c) :=
  (dat0 V c).arrAt_eq_of_cover 2 (prod (in0 V c) (wt0 V c)) (fun t _ => flushed_eq V c t) cover

/-- Entry (p, q) of the first dense layer's output: row p of the features against column q of the weight. -/
theorem arr (c : Dev nD) (p : Fin 50000) (q : Fin 128) :
    out0 V c (ix2 p q) = ∑ k : Fin 128, in0 V c (ix2 p k) * wt0 V c (ix2 k q) := by
  rw [out_eq]

end Cert.KernelIdeal.Dense0

end
-- ==== Proof.Dense1.lean ====
/-
  The second dense layer: the rectified 50000x128 feature array times the 128x128 weight.

  The region runs over five grid points. Point t loads rows 10000 t … 10000 t + 9999 of the features and the whole
  weight, replaces every entry of the feature block by its maximum with zero, stores the 10000x128 product of that
  block with the weight, and the stored block is written back to the same rows of the result. An entry of a stored
  block is a sum over the 128 shared indices of products of extended reals (the zero the block is compared with is the
  extended real 0, narrowing an operand to bf16 changes no extended real, and the product accumulates into the zero
  block), so it is the entry of the whole product at the block entry's place in the array; the five row blocks cover
  the array, hence the array the region leaves is the whole product: entry (p, q) is the sum over k of
  max (feature (p, k)) 0 times weight (k, q).
-/
import proofs.«420952_j2327872274533_2_alg».proof.Proof.KArrays
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Dense1

open Cert.KernelIdeal Cert.KernelIdeal.Gen Cert.KernelIdeal.Arr
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The product block at an index -/

/-- The contraction of a 10000x128 block with the 128x128 weight keeps the block's row on the left operand's first axis … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … puts the summation index on its second axis … -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- … and on the weight's first axis … -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and keeps the block's column on the weight's second axis. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, q) of what one grid point stores: row r of its input block, each entry replaced by its maximum with zero,
    against column q of the weight. The block's reshaping to its own shape is the identity, the zero it is compared with
    is the extended real 0, narrowing to bf16 changes no extended real, and the product accumulates into the zero block. -/
theorem pay_apply (x0 : Vec Ideal S10000x128 .f32) (x1 : Vec Ideal S128x128 .f32) (r : Fin 10000) (q : Fin 128) :
    k1_pay1 x0 x1 (ix2 r q) = ∑ k : Fin 128, max (x0 (ix2 r k)) 0 * x1 (ix2 k q) := by
  unfold k1_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, maximumf_apply, shapeCast_self, broadcast_apply]
  show max (x0 (ix2 r k)) (Ideal.ofBits .f32 0x00000000#32) * x1 (ix2 k q) = _
  rw [Ideal.ofBits_zero_f32]

/-! ## From the five row blocks to the whole array -/

/-- The whole product of the rectified features: entry (p, q) is row p of the features, each entry replaced by its maximum
    with zero, against column q of the weight. -/
abbrev prod (a : FVec Ideal S50000x128 .f32) (w : FVec Ideal S128x128 .f32) : FVec Ideal S50000x128 .f32 :=
  fun i => ∑ k : Fin 128, max (a (ix2 (n0 := 50000) (i 0) k)) 0 * w (ix2 (n1 := 128) k (i 1))

/-- The rows the grid's point t loads, and the weight as it loads it. -/
abbrev xblk (c : Dev nD) (t : Fin cfg1.N) : Vec Ideal S10000x128 .f32 := iblk1 V c 0 t
abbrev wblk (c : Dev nD) (t : Fin cfg1.N) : Vec Ideal S128x128 .f32 := iblk1 V c 1 t

theorem hz : (![0, 0] : Fin 2 → Nat) = fun _ => 0 := funext fun a => by fin_cases a <;> rfl

/-- Over the five points: the input's and the output's block index is (t, 0), the weight's is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of point t's input block is row 10000 t + r of the features. -/
theorem xblk_apply (c : Dev nD) (t : Fin cfg1.N) (r : Fin 10000) (k : Fin 128) (p : Fin 50000)
    (hp : p.val = t.val * 10000 + r.val) : xblk V c t (ix2 r k) = in1 V c (ix2 p k) := by
  obtain ⟨e0, e1, -⟩ := idx_facts t
  show V c main_v48 (((cfg1.win 0).blk t).view.emb (ix2 r k)) = V c main_v48 (ix2 p k)
  have h : ((cfg1.win 0).blk t).view.emb (ix2 r k) = ix2 p k := by
    funext a; apply Fin.ext
    match a with
    | ⟨0, _⟩ => show win1_0.index t (0 : Fin 2) * 10000 + 1 * r.val = p.val; omega
    | ⟨1, _⟩ => show win1_0.index t (1 : Fin 2) * 128 + 1 * k.val = k.val; omega
  rw [h]

/-- Every point loads the whole weight. -/
theorem wblk_apply (c : Dev nD) (t : Fin cfg1.N) (k q : Fin 128) : wblk V c t (ix2 k q) = wt1 V c (ix2 k q) := by
  obtain ⟨-, -, e2, e3, -⟩ := idx_facts t
  show V c main_arg5 (((cfg1.win 1).blk t).view.emb (ix2 k q)) = V c main_arg5 (ix2 k q)
  have h : ((cfg1.win 1).blk t).view.emb (ix2 k q) = ix2 k q := by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  rw [h]

/-- What a point stores, entry by entry, is the whole product at the entry's place in the array: for blocks x0, x1 that
    are rows 10000 n … of a (not yet rectified: the point rectifies what it loads) and all of w. -/
theorem block_value (x0 : Vec Ideal S10000x128 .f32) (x1 : Vec Ideal S128x128 .f32)
    (a : FVec Ideal S50000x128 .f32) (w : FVec Ideal S128x128 .f32) (n : Nat)
    (hx : ∀ (r : Fin 10000) (k : Fin 128) (p : Fin 50000), p.val = n * 10000 + r.val → x0 (ix2 r k) = a (ix2 p k))
    (hw : ∀ k q : Fin 128, x1 (ix2 k q) = w (ix2 k q))
    (j : S10000x128.Idx) (i : S50000x128.Idx) (h0 : (i 0).val = n * 10000 + (j 0).val) (h1 : (i 1).val = (j 1).val) :
    k1_pay1 x0 x1 j = prod a w i := by
  obtain ⟨r, q, rfl⟩ : ∃ (r : Fin 10000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  rw [pay_apply]
  show _ = ∑ k : Fin 128, max (a (ix2 p k)) 0 * w (ix2 k q')
  exact Finset.sum_congr rfl fun k _ => by rw [hx r k p h0, hw]

/-- What point t writes back is block t of the whole product of the arrays the region finds. -/
theorem flushed_eq (c : Dev nD) (t : Fin cfg1.N) :
    (dat1 V c).flushed 2 t = ((cfg1.win 2).blk t).view.read (Elt Ideal) (prod (in1 V c) (wt1 V c)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨-, -, -, -, e4, e5⟩ := idx_facts t
  funext j
  show k1_pay1 (xblk V c t) (wblk V c t) j = prod (in1 V c) (wt1 V c) (((cfg1.win 2).blk t).view.emb j)
  refine block_value (xblk V c t) (wblk V c t) (in1 V c) (wt1 V c) t.val (xblk_apply V c t) (wblk_apply V c t) j _ ?_ ?_
  · show win1_2.index t (0 : Fin 2) * 10000 + 1 * (j 0).val = t.val * 10000 + (j 0).val; omega
  · show win1_2.index t (1 : Fin 2) * 128 + 1 * (j 1).val = (j 1).val; omega

/-- An index of the array is in point t's block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- Row p is written by point p / 10000: the five blocks cover the array. -/
theorem cover (i : S50000x128.Idx) : ∃ t : Fin cfg1.N, (cfg1.win 2).flush t = true ∧ i ∈ ((cfg1.win 2).blk t).view.set := by
  have hi0 : (i 0).val < 50000 := idx2_lt0 i
  have hi1 : (i 1).val < 128 := idx2_lt1 i
  have hN : grid1.N = 5 := N_1
  let t : Fin cfg1.N := ⟨(i 0).val / 10000, by show (i 0).val / 10000 < grid1.N; omega⟩
  have ht : t.val = (i 0).val / 10000 := rfl
  obtain ⟨-, -, -, -, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array the region leaves is the whole product. -/
theorem out_eq (c : Dev nD) : out1 V c = prod (in1 V c) (wt1 V c) :=
  (dat1 V c).arrAt_eq_of_cover 2 (prod (in1 V c) (wt1 V c)) (fun t _ => flushed_eq V c t) cover

/-- Entry (p, q) of the second dense layer's output: row p of the features, rectified, against column q of the weight. -/
theorem arr (c : Dev nD) (p : Fin 50000) (q : Fin 128) :
    out1 V c (ix2 p q) = ∑ k : Fin 128, max (in1 V c (ix2 p k)) 0 * wt1 V c (ix2 k q) := by
  rw [out_eq]

end Cert.KernelIdeal.Dense1

end
-- ==== Proof.Dense2.lean ====
/-
  The third dense layer: the rectified 50000x128 feature array times the 128x128 weight.

  The region runs over five grid points. Point t loads rows 10000 t … 10000 t + 9999 of the features and the whole
  weight, replaces every entry of the feature block by its maximum with zero, stores the 10000x128 product of that
  block with the weight, and the stored block is written back to the same rows of the result. An entry of a stored
  block is a sum over the 128 shared indices of products of extended reals (the zero the block is compared with is the
  extended real 0, narrowing an operand to bf16 changes no extended real, and the product accumulates into the zero
  block), so it is the entry of the whole product at the block entry's place in the array; the five row blocks cover
  the array, hence the array the region leaves is the whole product: entry (p, q) is the sum over k of
  max (feature (p, k)) 0 times weight (k, q).
-/
import proofs.«420952_j2327872274533_2_alg».proof.Proof.KArrays
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Dense2

open Cert.KernelIdeal Cert.KernelIdeal.Gen Cert.KernelIdeal.Arr
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The product block at an index -/

/-- The contraction of a 10000x128 block with the 128x128 weight keeps the block's row on the left operand's first axis … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … puts the summation index on its second axis … -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- … and on the weight's first axis … -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and keeps the block's column on the weight's second axis. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, q) of what one grid point stores: row r of its input block, each entry replaced by its maximum with zero,
    against column q of the weight. The block's reshaping to its own shape is the identity, the zero it is compared with
    is the extended real 0, narrowing to bf16 changes no extended real, and the product accumulates into the zero block. -/
theorem pay_apply (x0 : Vec Ideal S10000x128 .f32) (x1 : Vec Ideal S128x128 .f32) (r : Fin 10000) (q : Fin 128) :
    k2_pay1 x0 x1 (ix2 r q) = ∑ k : Fin 128, max (x0 (ix2 r k)) 0 * x1 (ix2 k q) := by
  unfold k2_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, maximumf_apply, shapeCast_self, broadcast_apply]
  show max (x0 (ix2 r k)) (Ideal.ofBits .f32 0x00000000#32) * x1 (ix2 k q) = _
  rw [Ideal.ofBits_zero_f32]

/-! ## From the five row blocks to the whole array -/

/-- The whole product of the rectified features: entry (p, q) is row p of the features, each entry replaced by its maximum
    with zero, against column q of the weight. -/
abbrev prod (a : FVec Ideal S50000x128 .f32) (w : FVec Ideal S128x128 .f32) : FVec Ideal S50000x128 .f32 :=
  fun i => ∑ k : Fin 128, max (a (ix2 (n0 := 50000) (i 0) k)) 0 * w (ix2 (n1 := 128) k (i 1))

/-- The rows the grid's point t loads, and the weight as it loads it. -/
abbrev xblk (c : Dev nD) (t : Fin cfg2.N) : Vec Ideal S10000x128 .f32 := iblk2 V c 0 t
abbrev wblk (c : Dev nD) (t : Fin cfg2.N) : Vec Ideal S128x128 .f32 := iblk2 V c 1 t

theorem hz : (![0, 0] : Fin 2 → Nat) = fun _ => 0 := funext fun a => by fin_cases a <;> rfl

/-- Over the five points: the input's and the output's block index is (t, 0), the weight's is (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of point t's input block is row 10000 t + r of the features. -/
theorem xblk_apply (c : Dev nD) (t : Fin cfg2.N) (r : Fin 10000) (k : Fin 128) (p : Fin 50000)
    (hp : p.val = t.val * 10000 + r.val) : xblk V c t (ix2 r k) = in2 V c (ix2 p k) := by
  obtain ⟨e0, e1, -⟩ := idx_facts t
  show V c main_v65 (((cfg2.win 0).blk t).view.emb (ix2 r k)) = V c main_v65 (ix2 p k)
  have h : ((cfg2.win 0).blk t).view.emb (ix2 r k) = ix2 p k := by
    funext a; apply Fin.ext
    match a with
    | ⟨0, _⟩ => show win2_0.index t (0 : Fin 2) * 10000 + 1 * r.val = p.val; omega
    | ⟨1, _⟩ => show win2_0.index t (1 : Fin 2) * 128 + 1 * k.val = k.val; omega
  rw [h]

/-- Every point loads the whole weight. -/
theorem wblk_apply (c : Dev nD) (t : Fin cfg2.N) (k q : Fin 128) : wblk V c t (ix2 k q) = wt2 V c (ix2 k q) := by
  obtain ⟨-, -, e2, e3, -⟩ := idx_facts t
  show V c main_arg7 (((cfg2.win 1).blk t).view.emb (ix2 k q)) = V c main_arg7 (ix2 k q)
  have h : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [h]

/-- What a point stores, entry by entry, is the whole product at the entry's place in the array: for blocks x0, x1 that
    are rows 10000 n … of a (not yet rectified: the point rectifies what it loads) and all of w. -/
theorem block_value (x0 : Vec Ideal S10000x128 .f32) (x1 : Vec Ideal S128x128 .f32)
    (a : FVec Ideal S50000x128 .f32) (w : FVec Ideal S128x128 .f32) (n : Nat)
    (hx : ∀ (r : Fin 10000) (k : Fin 128) (p : Fin 50000), p.val = n * 10000 + r.val → x0 (ix2 r k) = a (ix2 p k))
    (hw : ∀ k q : Fin 128, x1 (ix2 k q) = w (ix2 k q))
    (j : S10000x128.Idx) (i : S50000x128.Idx) (h0 : (i 0).val = n * 10000 + (j 0).val) (h1 : (i 1).val = (j 1).val) :
    k2_pay1 x0 x1 j = prod a w i := by
  obtain ⟨r, q, rfl⟩ : ∃ (r : Fin 10000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  rw [pay_apply]
  show _ = ∑ k : Fin 128, max (a (ix2 p k)) 0 * w (ix2 k q')
  exact Finset.sum_congr rfl fun k _ => by rw [hx r k p h0, hw]

/-- What point t writes back is block t of the whole product of the arrays the region finds. -/
theorem flushed_eq (c : Dev nD) (t : Fin cfg2.N) :
    (dat2 V c).flushed 2 t = ((cfg2.win 2).blk t).view.read (Elt Ideal) (prod (in2 V c) (wt2 V c)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨-, -, -, -, e4, e5⟩ := idx_facts t
  funext j
  show k2_pay1 (xblk V c t) (wblk V c t) j = prod (in2 V c) (wt2 V c) (((cfg2.win 2).blk t).view.emb j)
  refine block_value (xblk V c t) (wblk V c t) (in2 V c) (wt2 V c) t.val (xblk_apply V c t) (wblk_apply V c t) j _ ?_ ?_
  · show win2_2.index t (0 : Fin 2) * 10000 + 1 * (j 0).val = t.val * 10000 + (j 0).val; omega
  · show win2_2.index t (1 : Fin 2) * 128 + 1 * (j 1).val = (j 1).val; omega

/-- An index of the array is in point t's block iff each coordinate is in the block's range on its axis. -/
theorem mem_blk (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v66).slice (win2_2.rect t)).set ↔ _
  rw [View.set_slice_whole, Rect.mem_set_unit]
  exact Iff.rfl

/-- Row p is written by point p / 10000: the five blocks cover the array. -/
theorem cover (i : S50000x128.Idx) : ∃ t : Fin cfg2.N, (cfg2.win 2).flush t = true ∧ i ∈ ((cfg2.win 2).blk t).view.set := by
  have hi0 : (i 0).val < 50000 := idx2_lt0 i
  have hi1 : (i 1).val < 128 := idx2_lt1 i
  have hN : grid2.N = 5 := N_2
  let t : Fin cfg2.N := ⟨(i 0).val / 10000, by show (i 0).val / 10000 < grid2.N; omega⟩
  have ht : t.val = (i 0).val / 10000 := rfl
  obtain ⟨-, -, -, -, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The array the region leaves is the whole product. -/
theorem out_eq (c : Dev nD) : out2 V c = prod (in2 V c) (wt2 V c) :=
  (dat2 V c).arrAt_eq_of_cover 2 (prod (in2 V c) (wt2 V c)) (fun t _ => flushed_eq V c t) cover

/-- Entry (p, q) of the third dense layer's output: row p of the features, rectified, against column q of the weight. -/
theorem arr (c : Dev nD) (p : Fin 50000) (q : Fin 128) :
    out2 V c (ix2 p q) = ∑ k : Fin 128, max (in2 V c (ix2 p k)) 0 * wt2 V c (ix2 k q) := by
  rw [out_eq]

end Cert.KernelIdeal.Dense2

end
-- ==== Proof.PoolPay.lean ====
/-
  The pooling kernel's arithmetic at one entry of its 64x128 block.

  The body multiplies the transposed 10000x64 matrix of indicators "row r carries graph id g" with the
  10000x128 block of node features and adds the product onto what the block held. Over the extended
  reals the indicator is 1 or 0, and 1 * x = x, 0 * x = 0 for every x, so entry (g, h) gains the sum,
  over the rows r whose id word is g, of x(r, h).
-/
import proofs.«420952_j2327872274533_2_alg».proof.Proof.KArrays
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Pool

open Cert.KernelIdeal Cert.KernelIdeal.Gen Cert.KernelIdeal.Arr
open Idealize.ShloMosaic Idealize.ShloMosaic.TcCoe Idealize.SL.Sem Idealize.ShloMosaic.ValueIdx

/-! ## The product's operand indices -/

/-- The left operand (rows by graphs) is read at the contraction's row ... -/
theorem lhs_0 (j : S64x128.Idx) (k : dot_S10000x64_S10000x128_S64x128_0_0_1_1_n_n.contr.Idx) :
    (dot_S10000x64_S10000x128_S64x128_0_0_1_1_n_n.lhsIdx j k 0 : ℕ) = k ⟨0, by decide⟩ := by
  simp [DotDims.lhsIdx, dot_S10000x64_S10000x128_S64x128_0_0_1_1_n_n]; rfl
/-- ... and the result's graph; -/
theorem lhs_1 (j : S64x128.Idx) (k : dot_S10000x64_S10000x128_S64x128_0_0_1_1_n_n.contr.Idx) :
    (dot_S10000x64_S10000x128_S64x128_0_0_1_1_n_n.lhsIdx j k 1 : ℕ) = j 0 := by
  simp [DotDims.lhsIdx, dot_S10000x64_S10000x128_S64x128_0_0_1_1_n_n]; rfl
/-- the right operand (rows by features) at the contraction's row ... -/
theorem rhs_0 (j : S64x128.Idx) (k : dot_S10000x64_S10000x128_S64x128_0_0_1_1_n_n.contr.Idx) :
    (dot_S10000x64_S10000x128_S64x128_0_0_1_1_n_n.rhsIdx j k 0 : ℕ) = k ⟨0, by decide⟩ := by
  simp [DotDims.rhsIdx, dot_S10000x64_S10000x128_S64x128_0_0_1_1_n_n]; rfl
/-- ... and the result's feature. -/
theorem rhs_1 (j : S64x128.Idx) (k : dot_S10000x64_S10000x128_S64x128_0_0_1_1_n_n.contr.Idx) :
    (dot_S10000x64_S10000x128_S64x128_0_0_1_1_n_n.rhsIdx j k 1 : ℕ) = j 1 := by
  simp [DotDims.rhsIdx, dot_S10000x64_S10000x128_S64x128_0_0_1_1_n_n]; rfl

/-! ## The indicator -/

/-- The bit of a word comparison, widened and converted, is the extended real 1 or 0. -/
theorem sitofp_cmpi_eq (x y : BitVec 32) :
    (FloatOps.sitofp .f32 ((IntOp.cmpi .eq x y).setWidth 32) : Ideal .f32) = if x = y then 1 else 0 := by
  by_cases e : x = y
  · subst e
    rw [if_pos rfl, show IntOp.cmpi .eq x x = 1#1 from by simp [IntOp.cmpi]]
    show (((BitVec.setWidth 32 1#1).toInt : ℝ) : EReal) = 1
    rw [show (BitVec.setWidth 32 1#1).toInt = 1 from by decide]
    simp
  · have hb : (x == y) = false := beq_eq_false_iff_ne.mpr e
    rw [if_neg e, show IntOp.cmpi .eq x y = 0#1 from by show BitVec.ofBool (x == y) = 0#1; rw [hb]; rfl]
    show (((BitVec.setWidth 32 0#1).toInt : ℝ) : EReal) = 0
    rw [show (BitVec.setWidth 32 0#1).toInt = 0 from by decide]
    simp

/-- The matrix of indicators the body builds from the block's column of graph ids. -/
def onehot (x1 : Vec Ideal S10000x1 .i32) : FVec Ideal S10000x64 .bf16 :=
  truncf (F := Ideal) .bf16 (sitofp (F := Ideal) .f32 (extui 32 (cmpi .eq
    (broadcastTo S10000x64 (shapeCast S10000x1 x1 shapeCasts_S10000x1_S10000x1 : IVec S10000x1 32) broadcasts_S10000x1_S10000x64)
    (iota .tc S10000x64 32 [1] iota_S10000x64_d1_w32)) natLt_1_32)) bitsLt_bf16_f32

/-- Its entry (r, g): 1 when row r's id word is g, else 0. -/
theorem onehot_apply (x1 : Vec Ideal S10000x1 .i32) (i : S10000x64.Idx) (r : Fin 10000) (g : Fin 64)
    (h0 : (i 0).val = r.val) (h1 : (i 1).val = g.val) :
    onehot x1 i = if x1 (ix2 r 0) = BitVec.ofNat 32 g.val then 1 else 0 := by
  have hb : broadcastTo S10000x64 (shapeCast S10000x1 x1 shapeCasts_S10000x1_S10000x1 : IVec S10000x1 32) broadcasts_S10000x1_S10000x64 i
      = x1 (ix2 r 0) :=
    (broadcastTo_apply _ _ i (ix2 r 0) (fun a => match a with
      | ⟨0, _⟩ => h0.symm
      | ⟨1, _⟩ => rfl)).trans (congrFun (shapeCast_self x1 shapeCasts_S10000x1_S10000x1) (ix2 r 0))
  have hi : iota .tc S10000x64 32 [1] iota_S10000x64_d1_w32 i = BitVec.ofNat 32 g.val :=
    (iota_single_apply .tc S10000x64 32 1 iota_S10000x64_d1_w32 i).trans (by rw [h1])
  show FloatOps.sitofp (F := Ideal) .f32 ((IntOp.cmpi .eq
      (broadcastTo S10000x64 (shapeCast S10000x1 x1 shapeCasts_S10000x1_S10000x1 : IVec S10000x1 32) broadcasts_S10000x1_S10000x64 i)
      (iota .tc S10000x64 32 [1] iota_S10000x64_d1_w32 i)).setWidth 32) = _
  rw [hb, hi]
  exact sitofp_cmpi_eq _ _

/-! ## The payload at an entry -/

/-- What the body stores, as the block it found plus the product of the indicators and the features. -/
theorem pay2_eq (x0 : Vec Ideal S10000x128 .f32) (x1 : Vec Ideal S10000x1 .i32) (xo : Vec Ideal S64x128 .f32) :
    k3_pay2 (F := Ideal) x0 x1 xo
      = addf (F := Ideal) xo (matmul (F := Ideal) dot_S10000x64_S10000x128_S64x128_0_0_1_1_n_n none (onehot x1)
          (truncf (F := Ideal) .bf16 x0 bitsLt_bf16_f32) (constant (F := Ideal) S64x128 .f32 0x00000000#32)) := by
  unfold k3_pay2 onehot
  rw [shapeCast_self, shapeCast_self, shapeCast_self]

/-- Entry (g, h) of what the body stores: what the block held there plus the features' column h summed over the
    rows whose graph id is g. -/
theorem pay2_apply (x0 : Vec Ideal S10000x128 .f32) (x1 : Vec Ideal S10000x1 .i32) (xo : Vec Ideal S64x128 .f32)
    (g : Fin 64) (h : Fin 128) :
    k3_pay2 (F := Ideal) x0 x1 xo (ix2 g h)
      = xo (ix2 g h) + ∑ r : Fin 10000, (if x1 (ix2 r 0) = BitVec.ofNat 32 g.val then x0 (ix2 r h) else 0) := by
  rw [pay2_eq]
  refine (addf_apply _ _ _).trans (congrArg (xo (ix2 g h) + ·) ?_)
  refine (Ideal.matmul_constant_zero_apply dot_S10000x64_S10000x128_S64x128_0_0_1_1_n_n none _ _ (ix2 g h)).trans ?_
  rw [← Equiv.sum_comp (contrEquiv1 dot_S10000x64_S10000x128_S64x128_0_0_1_1_n_n 10000 rfl rfl).symm]
  refine Finset.sum_congr rfl fun r _ => ?_
  rw [onehot_apply x1 _ r g
    ((lhs_0 _ _).trans (contrEquiv1_symm_val _ 10000 rfl rfl r))
    (lhs_1 _ _)]
  have hx : truncf (F := Ideal) .bf16 x0 bitsLt_bf16_f32
      (dot_S10000x64_S10000x128_S64x128_0_0_1_1_n_n.rhsIdx (ix2 g h)
        ((contrEquiv1 dot_S10000x64_S10000x128_S64x128_0_0_1_1_n_n 10000 rfl rfl).symm r)) = x0 (ix2 r h) :=
    congrArg x0 (Shape.idx_ext₂
      ((rhs_0 _ _).trans (contrEquiv1_symm_val _ 10000 rfl rfl r))
      (rhs_1 _ _))
  rw [hx]
  split
  · exact one_mul _
  · exact zero_mul _

end Cert.KernelIdeal.Pool

end
-- ==== Proof.PoolPieces.lean ====
/-
  What one run of the pooling body leaves in its 64x128 block.

  At the first grid point the body stores the zero block and then the update computed from the zeros read
  back; at every later point it stores the update computed from what the block held. Either way the block
  ends at the update's value: the later store covers the whole block.
-/
import proofs.«420952_j2327872274533_2_alg».proof.Proof.KArrays
import Idealize.ShloMosaic.Lib.ValueIdx
import Idealize.ShloMosaic.Lib.Pipeline.Value

set_option maxRecDepth 16384

noncomputable section

open scoped BigOperators

namespace Cert.KernelIdeal.Pool

open Cert.KernelIdeal Cert.KernelIdeal.Gen Cert.KernelIdeal.Arr
open Idealize.ShloMosaic Idealize.ShloMosaic.TcCoe Idealize.SL.Sem Idealize.ShloMosaic.ValueIdx

variable {F : FTy → Type} [FloatOps F]

/-- The zero offsets of a whole-block access. -/
theorem hz : (![0, 0] : Fin 2 → Nat) = fun _ => 0 := funext fun a => by fin_cases a <;> rfl

/-- A later point: the block, holding `xo`, ends at the update of `xo` by the point's two input blocks. -/
theorem out_B (c : Dev nD) (i : grid3.Coords) (a1 : Memref sig .tc .vmem S10000x128 .f32) (h1 : a1.IsWhole)
    (a2 : Memref sig .tc .vmem S10000x1 .i32) (h2 : a2.IsWhole) (a3 : Memref sig .tc .vmem S64x128 .f32) (h3 : a3.IsWhole)
    (hc : ¬cond3_0 i) (x0 : Vec F S10000x128 .f32) (x1 : Vec F S10000x1 .i32) (xo : Vec F S64x128 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread,
    View.ld_unit_zero (S := S10000x128) hz, View.ld_unit_zero (S := S10000x1) hz, View.ld_unit_zero (S := S64x128) hz]

/-- The first point: the block ends at the update of the zero block. -/
theorem out_A (c : Dev nD) (i : grid3.Coords) (a1 : Memref sig .tc .vmem S10000x128 .f32) (h1 : a1.IsWhole)
    (a2 : Memref sig .tc .vmem S10000x1 .i32) (h2 : a2.IsWhole) (a3 : Memref sig .tc .vmem S64x128 .f32) (h3 : a3.IsWhole)
    (hc : cond3_0 i) (x0 : Vec F S10000x128 .f32) (x1 : Vec F S10000x1 .i32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S64x128) hz, View.readCov_unit_zero (S := S64x128) _ hz]
  simp only [View.readAt_eq_ld, h1.read_unread, h2.read_unread,
    View.ld_unit_zero (S := S10000x128) hz, View.ld_unit_zero (S := S10000x1) hz]

end Cert.KernelIdeal.Pool

end
-- ==== Proof.Pool.lean ====
/-
  The pooling region: the 64x128 table it leaves holds, at (g, h), the sum of column h of the node features
  over the rows whose graph id is g.

  The region visits the 50000 rows in five blocks of 10000. Its output block is the same at every grid
  point: the first point zeroes it and adds its rows' contribution, each later point adds its own, and the
  block is written back once, after the last point, where it is the whole table. So the table is the sum
  of the five blocks' contributions, and since addition of extended reals is commutative and associative
  the five partial sums over 10000 rows are the one sum over the 50000 rows.
-/
import proofs.«420952_j2327872274533_2_alg».proof.Proof.PoolPay
import proofs.«420952_j2327872274533_2_alg».proof.Proof.PoolPieces
import Mathlib.Algebra.BigOperators.Fin

set_option maxRecDepth 16384

noncomputable section

open scoped BigOperators

namespace Cert.KernelIdeal.Pool

open Cert.KernelIdeal Cert.KernelIdeal.Gen Cert.KernelIdeal.Arr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The input blocks are rows of the arrays -/

/-- The block of node features the region loads at point `t`, -/
abbrev xblk (c : Dev nD) (t : Fin cfg3.N) : Vec Ideal S10000x128 .f32 := iblk3 (F := Ideal) V c 0 t
/-- and its block of graph ids. -/
abbrev idblk (c : Dev nD) (t : Fin cfg3.N) : Vec Ideal S10000x1 .i32 := iblk3 (F := Ideal) V c 1 t

/-- Both windows step down the rows with the grid point and stay at column block 0. -/
theorem idx_feat : ∀ t : Fin cfg3.N, win3_0.index t 0 = t.val ∧ win3_0.index t 1 = 0 :=
  (by decide +kernel : ∀ t : Fin grid3.N, win3_0.index t 0 = t.val ∧ win3_0.index t 1 = 0)
theorem idx_gid : ∀ t : Fin cfg3.N, win3_1.index t 0 = t.val ∧ win3_1.index t 1 = 0 :=
  (by decide +kernel : ∀ t : Fin grid3.N, win3_1.index t 0 = t.val ∧ win3_1.index t 1 = 0)

/-- Row `r` of point `t`'s feature block is row `10000 t + r` of the features. -/
theorem xblk_apply (c : Dev nD) (t : Fin cfg3.N) (r : Fin 10000) (h : Fin 128) (n : Fin 50000)
    (hn : n.val = 10000 * t.val + r.val) : xblk V c t (ix2 r h) = feat V c (ix2 n h) := by
  show iblk3 (F := Ideal) V c 0 t (ix2 r h) = V c main_v82 (ix2 n h)
  unfold iblk3
  rw [View.read_apply]
  show V c main_v82 _ = V c main_v82 _
  congr 1
  funext a
  apply Fin.ext
  match a with
  | ⟨0, _⟩ => show win3_0.index t 0 * 10000 + 1 * r.val = n.val; rw [(idx_feat t).1, hn]; omega
  | ⟨1, _⟩ => show win3_0.index t 1 * 128 + 1 * h.val = h.val; rw [(idx_feat t).2]; omega

/-- Row `r` of point `t`'s id block is row `10000 t + r` of the ids. -/
theorem idblk_apply (c : Dev nD) (t : Fin cfg3.N) (r : Fin 10000) (n : Fin 50000)
    (hn : n.val = 10000 * t.val + r.val) : idblk V c t (ix2 r 0) = gid V c (ix2 n 0) := by
  show iblk3 (F := Ideal) V c 1 t (ix2 r 0) = V c main_v83 (ix2 n 0)
  unfold iblk3
  rw [View.read_apply]
  show V c main_v83 _ = V c main_v83 _
  congr 1
  funext a
  apply Fin.ext
  match a with
  | ⟨0, _⟩ => show win3_1.index t 0 * 10000 + 1 * r.val = n.val; rw [(idx_gid t).1, hn]; omega
  | ⟨1, _⟩ => show win3_1.index t 1 * 1 + 1 * 0 = 0; rw [(idx_gid t).2]

/-! ## One row's contribution, and a block's -/

/-- What row `m` of the arrays contributes to entry (g, h): its feature `h` if its graph id is `g`, else nothing
    (and nothing past the last row). -/
def rowTerm (c : Dev nD) (g : Fin 64) (h : Fin 128) (m : ℕ) : EReal :=
  if hm : m < 50000 then
    (if gid V c (ix2 ⟨m, hm⟩ 0) = BitVec.ofNat 32 g.val then feat V c (ix2 ⟨m, hm⟩ h) else 0)
  else 0

/-- The rows of point `t`'s blocks contribute what rows `10000 t …` of the arrays do. -/
theorem blockSum_eq (c : Dev nD) (t : Fin cfg3.N) (g : Fin 64) (h : Fin 128) :
    (∑ r : Fin 10000, (if idblk V c t (ix2 r 0) = BitVec.ofNat 32 g.val then xblk V c t (ix2 r h) else 0))
      = ∑ r ∈ Finset.range 10000, rowTerm V c g h (10000 * t.val + r) := by
  have hN : cfg3.N = 5 := N_3
  rw [Finset.sum_range]
  refine Finset.sum_congr rfl fun r _ => ?_
  have hm : 10000 * t.val + r.val < 50000 := by have := t.isLt; have := r.isLt; omega
  unfold rowTerm
  rw [dif_pos hm, xblk_apply V c t r h ⟨_, hm⟩ rfl, idblk_apply V c t r ⟨_, hm⟩ rfl]

/-! ## The block after each point -/

/-- The zero block reads zero. -/
theorem pay1_apply (i : S64x128.Idx) : k3_pay1 (F := Ideal) i = 0 := Ideal.ofBits_zero_f32

/-- After the first point the block is the update of the zero block by the point's input blocks; -/
theorem outsAt_first (c : Dev nD) (t : Fin cfg3.N) (h0 : t.val % 5 = 0) :
    outsAt3 (F := Ideal) V c t.val t.isLt = k3_pay2 (F := Ideal) (xblk V c t) (idblk V c t) (k3_pay1 (F := Ideal)) := by
  rw [outsAt3_A V c t h0]
  exact out_A (F := Ideal) c (grid3.coords t) (ms3_0 t) (hs3_0 t) (ms3_1 t) (hs3_1 t) (ms3_2 t) (hs3_2 t)
    ((hcond3_0 t).mpr h0) (xblk V c t) (idblk V c t)

/-- after a later point, the update of what the point before left. -/
theorem outsAt_later (c : Dev nD) (t : Fin cfg3.N) (h0 : ¬t.val % 5 = 0) :
    outsAt3 (F := Ideal) V c t.val t.isLt
      = k3_pay2 (F := Ideal) (xblk V c t) (idblk V c t)
          (outsAt3 (F := Ideal) V c (t.val - 1) (Nat.lt_of_le_of_lt (Nat.sub_le _ _) t.isLt)) := by
  rw [outsAt3_B V c t h0]
  exact out_B (F := Ideal) c (grid3.coords t) (ms3_0 t) (hs3_0 t) (ms3_1 t) (hs3_1 t) (ms3_2 t) (hs3_2 t)
    (fun h => h0 ((hcond3_0 t).mp h)) (xblk V c t) (idblk V c t)
    (outsAt3 (F := Ideal) V c (t.val - 1) (Nat.lt_of_le_of_lt (Nat.sub_le _ _) t.isLt))

/-- THE RUNNING SUM. After point `n` entry (g, h) of the block holds the contributions of the first
    `10000 (n + 1)` rows: by induction on the point. -/
theorem outsAt_apply (c : Dev nD) (g : Fin 64) (h : Fin 128) : ∀ (n : ℕ) (hn : n < cfg3.N),
    outsAt3 (F := Ideal) V c n hn (ix2 g h) = ∑ m ∈ Finset.range (10000 * n + 10000), rowTerm V c g h m
  | 0, hn => by
    refine (congrFun (outsAt_first V c ⟨0, hn⟩ rfl) (ix2 g h)).trans ?_
    refine (pay2_apply (xblk V c ⟨0, hn⟩) (idblk V c ⟨0, hn⟩) (k3_pay1 (F := Ideal)) g h).trans ?_
    rw [pay1_apply, zero_add, blockSum_eq V c ⟨0, hn⟩ g h, Nat.mul_zero, Nat.zero_add]
    exact Finset.sum_congr rfl fun r _ => by rw [Nat.zero_add]
  | n + 1, hn => by
    have hN : cfg3.N = 5 := N_3
    have hB : ¬(⟨n + 1, hn⟩ : Fin cfg3.N).val % 5 = 0 := by dsimp only; omega
    refine (congrFun (outsAt_later V c ⟨n + 1, hn⟩ hB) (ix2 g h)).trans ?_
    refine (pay2_apply (xblk V c ⟨n + 1, hn⟩) (idblk V c ⟨n + 1, hn⟩) _ g h).trans ?_
    rw [blockSum_eq V c ⟨n + 1, hn⟩ g h]
    show outsAt3 (F := Ideal) V c n _ (ix2 g h) + _ = _
    rw [outsAt_apply c g h n (Nat.lt_of_succ_lt hn), Finset.sum_range_add (rowTerm V c g h) (10000 * (n + 1)) 10000,
      show 10000 * (n + 1) = 10000 * n + 10000 from Nat.mul_succ 10000 n]

/-! ## The table -/

theorem four_lt : 4 < cfg3.N := by rw [show cfg3.N = 5 from N_3]; decide

/-- The block after the last point. -/
abbrev last (c : Dev nD) : Vec Ideal S64x128 .f32 := outsAt3 (F := Ideal) V c 4 four_lt

/-- The one write-back, after the last point, writes that block: block (0, 0) of the 64x128 table is the table. -/
theorem flushed_eq (c : Dev nD) (t : Fin cfg3.N) (hf : (cfg3.win 2).flush t = true) :
    (dat3 (F := Ideal) V c).flushed 2 t = ((cfg3.win 2).blk t).view.read (Elt Ideal) (last V c) := by
  have hN : cfg3.N = 5 := N_3
  have h4 : t.val = 4 := by have := (flush3_2 t).mp hf; have := t.isLt; omega
  obtain rfl : t = t3_4 := Fin.ext h4
  show (cfg3.win 2).cut (grid3.coords t3_4) ((dat3 (F := Ideal) V c).after 2 t3_4) = _
  rw [after3_2]
  have hz' : (fun a => win3_2.index t3_4 a * main_v84.ty.shape.size a) = fun _ => 0 :=
    funext fun a => by fin_cases a <;> decide
  exact (Memref.read_access_unit_zero (Elt Ideal) main_v84 hz' (fun a => by rw [congrFun hz' a]; simp) (last V c)).symm

/-- The last point's block starts at row 0 and column 0 of the table and has the table's extents. -/
theorem last_block : ∀ a : Fin 2, win3_2.index t3_4 a * win3_2.size a = 0 ∧ win3_2.xsize (grid3.coords t3_4) a = S64x128.size a := by
  decide +kernel

/-- So every entry of the table lies in it, -/
theorem mem_last_block (i : S64x128.Idx) : i ∈ ((cfg3.win 2).blk t3_4).view.set := by
  show i ∈ ((View.whole main_v84).slice (win3_2.rect t3_4)).set
  rw [View.set_slice_whole, Rect.mem_set_unit]
  intro a
  show win3_2.index t3_4 a * win3_2.size a ≤ (i a : Nat)
    ∧ (i a : Nat) < win3_2.index t3_4 a * win3_2.size a + win3_2.xsize (grid3.coords t3_4) a
  rw [(last_block a).1, (last_block a).2, Nat.zero_add]
  exact ⟨Nat.zero_le _, (i a).isLt⟩

/-- and the table ends holding the block after the last point. -/
theorem final (c : Dev nD) : sums V c = last V c :=
  (dat3 (F := Ideal) V c).arrAt_eq_of_cover 2 (last V c) (flushed_eq V c) fun i =>
    ⟨t3_4, (flush3_2 t3_4).mpr rfl, mem_last_block i⟩

/-- THE POOLING REGION'S TABLE: entry (g, h) is column `h` of the node features summed over the rows whose
    graph id is `g`. -/
theorem arr (c : Dev nD) (g : Fin 64) (h : Fin 128) :
    sums V c (ix2 g h) = ∑ n : Fin 50000, (if gid V c (ix2 n 0) = BitVec.ofNat 32 g.val then feat V c (ix2 n h) else 0) := by
  refine (congrFun (final V c) (ix2 g h)).trans ?_
  refine (outsAt_apply V c g h 4 four_lt).trans ?_
  show ∑ m ∈ Finset.range 50000, rowTerm V c g h m = _
  rw [Finset.sum_range]
  exact Finset.sum_congr rfl fun n _ => by unfold rowTerm; rw [dif_pos n.isLt]

end Cert.KernelIdeal.Pool

end
-- ==== Proof.lean ====
/-
  A three-layer graph convolution with mean pooling and a linear read-out, against its plain reference.

  Both programs compute, from the edge list, the symmetric normalisation of the graph with self loops; apply
  three times "multiply the node features by a weight, gather along the edges, scale by the edge weight, add
  into the destination nodes, add a bias", rectifying between the layers; sum each graph's node features,
  divide by the graph's node count (at least one), and read out one number per graph. They differ in four
  places only. The kernel multiplies by the weights in three tiled products (five row blocks of 10000 each)
  where the reference has one matrix product: entry by entry the same sum over the 128 inner indices. The
  kernel rectifies the input of the second and third products inside the product's block, the reference just
  before it: the same maximum with zero. And the kernel pools by multiplying a one-hot matrix of the graph ids
  into the features, block by block into one accumulator, where the reference adds each node's row into its
  graph's row: the same sum over the nodes of the graph, since over the extended reals 0 times x is 0 and 1
  times x is x for every x and addition is commutative and associative; an id outside [0, 64) matches no
  one-hot column and is dropped by the reference as well. The narrowing of the products' operands to a shorter
  float format is the identity on the extended reals. No step uses that the inputs are finite.
-/
import proofs.«420952_j2327872274533_2_alg».proof.Defs
import proofs.«420952_j2327872274533_2_alg».proof.Proof.Gen.Kernel
import proofs.«420952_j2327872274533_2_alg».proof.Proof.Gen.Kernel.Skeleton
import proofs.«420952_j2327872274533_2_alg».proof.Proof.Gen.Kernel.Launch
import proofs.«420952_j2327872274533_2_alg».proof.Proof.Gen.Kernel.Points
import proofs.«420952_j2327872274533_2_alg».proof.Proof.Gen.Kernel.Frame
import proofs.«420952_j2327872274533_2_alg».proof.Proof.Gen.KernelIdeal
import proofs.«420952_j2327872274533_2_alg».proof.Proof.Gen.KernelIdeal.Skeleton
import proofs.«420952_j2327872274533_2_alg».proof.Proof.Gen.KernelIdeal.Launch
import proofs.«420952_j2327872274533_2_alg».proof.Proof.Gen.KernelIdeal.Points
import proofs.«420952_j2327872274533_2_alg».proof.Proof.Gen.KernelIdeal.Frame
import proofs.«420952_j2327872274533_2_alg».proof.Proof.Gen.ReferenceIdeal
import proofs.«420952_j2327872274533_2_alg».proof.Proof.Gen.Pre_finite_inputs
import proofs.«420952_j2327872274533_2_alg».proof.Proof.KRun
import proofs.«420952_j2327872274533_2_alg».proof.Proof.KValue
import proofs.«420952_j2327872274533_2_alg».proof.Proof.Dense0
import proofs.«420952_j2327872274533_2_alg».proof.Proof.Dense1
import proofs.«420952_j2327872274533_2_alg».proof.Proof.Dense2
import proofs.«420952_j2327872274533_2_alg».proof.Proof.Pool
import proofs.«420952_j2327872274533_2_alg».proof.Proof.RefRun
import proofs.«420952_j2327872274533_2_alg».proof.Proof.RefRead
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments alone: its run, with the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the reference's result term of the
    kernel's launch arguments: the kernel by its run and the value of its last boundary, the reference by its
    run, its result term being that stage of the agreeing arguments. -/
theorem algebraic : Cert.algebraic_KernelIdeal_ReferenceIdeal := by
  intro m ρ m' ρ' _ hagree
  refine ⟨fun c => Cert.ReferenceIdeal.ReadP.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result m ρ
          (fun c p q => Cert.KernelIdeal.Dense0.arr (Cert.KernelIdeal.Gen.V3 m ρ) c p q)
          (fun c p q => Cert.KernelIdeal.Dense1.arr (Cert.KernelIdeal.Gen.V5 m ρ) c p q)
          (fun c p q => Cert.KernelIdeal.Dense2.arr (Cert.KernelIdeal.Gen.V7 m ρ) c p q)
          (fun c g h => Cert.KernelIdeal.Pool.arr (Cert.KernelIdeal.Gen.V9 m ρ) c g h) c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.RunP.run (F := Ideal) m' ρ')
    obtain ⟨a0, a1, a2, a3, a4, a5, a6, a7, a8, a9, a10⟩ := hagree c
    rw [Cert.ReferenceIdeal.ReadP.val_main_v101_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
